-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1600000x64 : Shape := ⟨2, ![1600000, 64]⟩
abbrev S1600000 : Shape := ⟨1, ![1600000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1600000x64 : S_.BroadcastsInDim S1600000x64 (![] : Fin 0 → Fin S1600000x64.rank)
  reducesTo_S1600000x64_S_d0_1 : S1600000x64.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg9 : FVec F S64 .f32) (main_arg10 : FVec F S64x64 .f32) (main_arg11 : FVec F S64 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x64 .f32 := Host.absf main_arg10
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  main_v48

def fn_part1 {F : FTy → Type} [FloatOps F] (main_arg6 : FVec F S64x64 .f32) (main_arg7 : FVec F S64 .f32) (main_arg8 : FVec F S64x64 .f32) (main_arg9 : FVec F S64 .f32) (main_arg10 : FVec F S64x64 .f32) (main_arg11 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg8
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg9 main_arg10 main_arg11 main_v33

def fn {F : FTy → Type} [FloatOps F] (main_arg0 : FVec F S100000x64 .f32) (main_arg1 : FVec F S1600000x64 .f32) (main_arg2 : IVec S1600000 32) (main_arg3 : IVec S1600000 32) (main_arg4 : FVec F S64x64 .f32) (main_arg5 : FVec F S64 .f32) (main_arg6 : FVec F S64x64 .f32) (main_arg7 : FVec F S64 .f32) (main_arg8 : FVec F S64x64 .f32) (main_arg9 : FVec F S64 .f32) (main_arg10 : FVec F S64x64 .f32) (main_arg11 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1600000x64 .f32 := Host.absf main_arg1
  let main_cst_0 : FVec F S_ .f32 := constant S_ .f32 0x7F800000#32
  let main_v5 : FVec F S1600000x64 .f32 := broadcastInDim S1600000x64 ![] bcast_S_S1600000x64 main_cst_0
  let main_v6 : IVec S1600000x64 1 := cmpf .olt main_v4 main_v5
  let main_c_1 : IVec S_ 1 := constantI S_ 1 1#1
  let main_v7 : IVec S_ 1 := (fun x v => Host.reduce IntOp.andi x v reducesTo_S1600000x64_S_d0_1 h_S_) main_v6 main_c_1
  let main_v8 : IVec S_ 1 := andi main_v3 main_v7
  let main_v9 : FVec F S64x64 .f32 := Host.absf main_arg4
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_arg9 main_arg10 main_arg11 main_v13 main_v16
-- ==== Kernel.lean ====
abbrev S100000x64 : Shape := ⟨2, ![100000, 64]⟩
abbrev S1600000x64 : Shape := ⟨2, ![1600000, 64]⟩
abbrev S1600000 : Shape := ⟨1, ![1600000]⟩
abbrev S64x64 : Shape := ⟨2, ![64, 64]⟩
abbrev S64 : Shape := ⟨1, ![64]⟩
abbrev S1x64 : Shape := ⟨2, ![1, 64]⟩
abbrev S10000x64 : Shape := ⟨2, ![10000, 64]⟩
abbrev S8000x64 : Shape := ⟨2, ![8000, 64]⟩
abbrev S_ : Shape := ⟨0, ![]⟩
abbrev S1600000x1 : Shape := ⟨2, ![1600000, 1]⟩

abbrev nBuf : Space → Nat
  | .hbm => 33
  | .vmem => 20
  | .smem => 0
  | _ => 0

abbrev bufTy : (tb : Table) → Fin (tcTables nBuf tb) → BufTy
  | .hbm, ⟨0, _⟩ => ⟨S100000x64, .f32⟩
  | .hbm, ⟨1, _⟩ => ⟨S1600000x64, .f32⟩
  | .hbm, ⟨2, _⟩ => ⟨S1600000, .i32⟩
  | .hbm, ⟨3, _⟩ => ⟨S1600000, .i32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S64x64, .f32⟩
  | .hbm, ⟨11, _⟩ => ⟨S64, .f32⟩
  | .hbm, ⟨12, _⟩ => ⟨S1x64, .f32⟩
  | .hbm, ⟨13, _⟩ => ⟨S100000x64, .f32⟩
  | .hbm, ⟨14, _⟩ => ⟨S1x64, .f32⟩
  | .hbm, ⟨15, _⟩ => ⟨S1x64, .f32⟩
  | .hbm, ⟨16, _⟩ => ⟨S1600000x64, .f32⟩
  | .hbm, ⟨17, _⟩ => ⟨S_, .i32⟩
  | .hbm, ⟨18, _⟩ => ⟨S1600000, .i32⟩
  | .hbm, ⟨19, _⟩ => ⟨S1600000, .i1⟩
  | .hbm, ⟨20, _⟩ => ⟨S_, .i32⟩
  | .hbm, ⟨21, _⟩ => ⟨S1600000, .i32⟩
  | .hbm, ⟨22, _⟩ => ⟨S1600000, .i32⟩
  | .hbm, ⟨23, _⟩ => ⟨S1600000, .i32⟩
  | .hbm, ⟨24, _⟩ => ⟨S1600000x1, .i32⟩
  | .hbm, ⟨25, _⟩ => ⟨S1600000x64, .f32⟩
  | .hbm, ⟨26, _⟩ => ⟨S1600000x64, .f32⟩
  | .hbm, ⟨27, _⟩ => ⟨S_, .f32⟩
  | .hbm, ⟨28, _⟩ => ⟨S100000x64, .f32⟩
  | .hbm, ⟨29, _⟩ => ⟨S1600000x1, .i32⟩
  | .hbm, ⟨30, _⟩ => ⟨S100000x64, .f32⟩
  | .hbm, ⟨31, _⟩ => ⟨S1x64, .f32⟩
  | .hbm, ⟨32, _⟩ => ⟨S100000x64, .f32⟩
  | .local _ .vmem, ⟨0, _⟩ => ⟨S10000x64, .f32⟩
  | .local _ .vmem, ⟨1, _⟩ => ⟨S10000x64, .f32⟩
  | .local _ .vmem, ⟨2, _⟩ => ⟨S64x64, .f32⟩
  | .local _ .vmem, ⟨3, _⟩ => ⟨S1x64, .f32⟩
  | .local _ .vmem, ⟨4, _⟩ => ⟨S10000x64, .f32⟩
  | .local _ .vmem, ⟨5, _⟩ => ⟨S10000x64, .f32⟩
  | .local _ .vmem, ⟨6, _⟩ => ⟨S8000x64, .f32⟩
  | .local _ .vmem, ⟨7, _⟩ => ⟨S8000x64, .f32⟩
  | .local _ .vmem, ⟨8, _⟩ => ⟨S64x64, .f32⟩
  | .local _ .vmem, ⟨9, _⟩ => ⟨S1x64, .f32⟩
  | .local _ .vmem, ⟨10, _⟩ => ⟨S64x64, .f32⟩
  | .local _ .vmem, ⟨11, _⟩ => ⟨S1x64, .f32⟩
  | .local _ .vmem, ⟨12, _⟩ => ⟨S8000x64, .f32⟩
  | .local _ .vmem, ⟨13, _⟩ => ⟨S8000x64, .f32⟩
  | .local _ .vmem, ⟨14, _⟩ => ⟨S10000x64, .f32⟩
  | .local _ .vmem, ⟨15, _⟩ => ⟨S10000x64, .f32⟩
  | .local _ .vmem, ⟨16, _⟩ => ⟨S64x64, .f32⟩
  | .local _ .vmem, ⟨17, _⟩ => ⟨S1x64, .f32⟩
  | .local _ .vmem, ⟨18, _⟩ => ⟨S10000x64, .f32⟩
  | .local _ .vmem, ⟨19, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_c : Ref sig .tc := ⟨.hbm, 17, rfl⟩
abbrev main_v5 : Ref sig .tc := ⟨.hbm, 18, rfl⟩
abbrev main_v6 : Ref sig .tc := ⟨.hbm, 19, rfl⟩
abbrev main_c_0 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg5_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg3_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem5_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem3_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![200], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S8000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  shapeCasts_S64_S1x64 : S64.ShapeCasts S1x64
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S8000x64_S8000x64_0_0 : ∀ a, (![0, 0] : Fin 2 → Nat) a + S8000x64.size a ≤ S8000x64.size a
  h_S8000x64 : 0 < S8000x64.numel
  broadcasts_S1x64_S8000x64 : S1x64.Broadcasts S8000x64
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  shapeCasts_S10000x64_S10000x64 : S10000x64.ShapeCasts S10000x64
  dot_S10000x64_S64x64_S10000x64_1_0_0_1_n_n_wf : DotDims.WF S10000x64 S64x64 S10000x64 [1] [0] [0] [1] [] []
  dot_S8000x64_S64x64_S8000x64_1_0_0_1_n_n_wf : DotDims.WF S8000x64 S64x64 S8000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x64.size a ≤ S100000x64.size a
  hwx0_3 : ∀ i : grid0.Coords, EltTy.bits .f32 = 32 ∨ (Rect.block (s := S100000x64) S10000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x64.size a ≤ S1600000x64.size a
  hwx1_0 : ∀ i : grid1.Coords, EltTy.bits .f32 = 32 ∨ (Rect.block (s := S1600000x64) S8000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S8000x64.size a ≤ S1600000x64.size a
  hwx1_5 : ∀ i : grid1.Coords, EltTy.bits .f32 = 32 ∨ (Rect.block (s := S1600000x64) S8000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x64.size a ≤ S100000x64.size a
  hwx2_3 : ∀ i : grid2.Coords, EltTy.bits .f32 = 32 ∨ (Rect.block (s := S100000x64) S10000x64.size (cc2_transform_3 i) (hinb2_3 i)).WholeWords (EltTy.packing .f32)

variable [Facts₀]

def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S8000x64_S64x64_S8000x64_1_0_0_1_n_n : DotDims S8000x64 S64x64 S8000x64 where
  lhsContracting := [1]
  rhsContracting := [0]
  lhsNonContracting := [0]
  rhsNonContracting := [1]
  lhsBatch := []
  rhsBatch := []
  wf := dot_S8000x64_S64x64_S8000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S10000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S8000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg8) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v3) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v4) S8000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v15) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg10) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v16) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v17) S10000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x64 : Shape := ⟨2, ![100000, 64]⟩
abbrev S1600000x64 : Shape := ⟨2, ![1600000, 64]⟩
abbrev S1600000 : Shape := ⟨1, ![1600000]⟩
abbrev S64x64 : Shape := ⟨2, ![64, 64]⟩
abbrev S64 : Shape := ⟨1, ![64]⟩
abbrev S1x64 : Shape := ⟨2, ![1, 64]⟩
abbrev S_ : Shape := ⟨0, ![]⟩
abbrev S1600000x1 : Shape := ⟨2, ![1600000, 1]⟩

abbrev nBuf : Space → Nat
  | .hbm => 93
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S1600000x64, .f32⟩
  | .hbm, ⟨2, _⟩ => ⟨S1600000, .i32⟩
  | .hbm, ⟨3, _⟩ => ⟨S1600000, .i32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S64x64, .f32⟩
  | .hbm, ⟨11, _⟩ => ⟨S64, .f32⟩
  | .hbm, ⟨12, _⟩ => ⟨S100000x64, .f32⟩
  | .hbm, ⟨13, _⟩ => ⟨S1x64, .f32⟩
  | .hbm, ⟨14, _⟩ => ⟨S100000x64, .f32⟩
  | .hbm, ⟨15, _⟩ => ⟨S100000x64, .f32⟩
  | .hbm, ⟨16, _⟩ => ⟨S1600000x64, .f32⟩
  | .hbm, ⟨17, _⟩ => ⟨S1x64, .f32⟩
  | .hbm, ⟨18, _⟩ => ⟨S1600000x64, .f32⟩
  | .hbm, ⟨19, _⟩ => ⟨S1600000x64, .f32⟩
  | .hbm, ⟨20, _⟩ => ⟨S_, .f32⟩
  | .hbm, ⟨21, _⟩ => ⟨S1600000x64, .f32⟩
  | .hbm, ⟨22, _⟩ => ⟨S1600000x64, .f32⟩
  | .hbm, ⟨23, _⟩ => ⟨S1600000x64, .f32⟩
  | .hbm, ⟨24, _⟩ => ⟨S1600000x64, .f32⟩
  | .hbm, ⟨25, _⟩ => ⟨S1600000x64, .i1⟩
  | .hbm, ⟨26, _⟩ => ⟨S1600000x64, .f32⟩
  | .hbm, ⟨27, _⟩ => ⟨S1600000x64, .f32⟩
  | .hbm, ⟨28, _⟩ => ⟨S1600000x64, .f32⟩
  | .hbm, ⟨29, _⟩ => ⟨S1600000x64, .f32⟩
  | .hbm, ⟨30, _⟩ => ⟨S1600000x64, .f32⟩
  | .hbm, ⟨31, _⟩ => ⟨S1600000x64, .f32⟩
  | .hbm, ⟨32, _⟩ => ⟨S1600000x64, .f32⟩
  | .hbm, ⟨33, _⟩ => ⟨S1600000x64, .f32⟩
  | .hbm, ⟨34, _⟩ => ⟨S_, .f32⟩
  | .hbm, ⟨35, _⟩ => ⟨S1600000x64, .f32⟩
  | .hbm, ⟨36, _⟩ => ⟨S1600000x64, .f32⟩
  | .hbm, ⟨37, _⟩ => ⟨S1600000x64, .f32⟩
  | .hbm, ⟨38, _⟩ => ⟨S1x64, .f32⟩
  | .hbm, ⟨39, _⟩ => ⟨S1600000x64, .f32⟩
  | .hbm, ⟨40, _⟩ => ⟨S1600000x64, .f32⟩
  | .hbm, ⟨41, _⟩ => ⟨S_, .f32⟩
  | .hbm, ⟨42, _⟩ => ⟨S1600000x64, .f32⟩
  | .hbm, ⟨43, _⟩ => ⟨S1600000x64, .f32⟩
  | .hbm, ⟨44, _⟩ => ⟨S1600000x64, .f32⟩
  | .hbm, ⟨45, _⟩ => ⟨S1600000x64, .f32⟩
  | .hbm, ⟨46, _⟩ => ⟨S1600000x64, .i1⟩
  | .hbm, ⟨47, _⟩ => ⟨S1600000x64, .f32⟩
  | .hbm, ⟨48, _⟩ => ⟨S1600000x64, .f32⟩
  | .hbm, ⟨49, _⟩ => ⟨S1600000x64, .f32⟩
  | .hbm, ⟨50, _⟩ => ⟨S1600000x64, .f32⟩
  | .hbm, ⟨51, _⟩ => ⟨S1600000x64, .f32⟩
  | .hbm, ⟨52, _⟩ => ⟨S1600000x64, .f32⟩
  | .hbm, ⟨53, _⟩ => ⟨S1600000x64, .f32⟩
  | .hbm, ⟨54, _⟩ => ⟨S1600000x64, .f32⟩
  | .hbm, ⟨55, _⟩ => ⟨S_, .f32⟩
  | .hbm, ⟨56, _⟩ => ⟨S1600000x64, .f32⟩
  | .hbm, ⟨57, _⟩ => ⟨S1600000x64, .f32⟩
  | .hbm, ⟨58, _⟩ => ⟨S_, .i32⟩
  | .hbm, ⟨59, _⟩ => ⟨S1600000, .i32⟩
  | .hbm, ⟨60, _⟩ => ⟨S1600000, .i1⟩
  | .hbm, ⟨61, _⟩ => ⟨S_, .i32⟩
  | .hbm, ⟨62, _⟩ => ⟨S1600000, .i32⟩
  | .hbm, ⟨63, _⟩ => ⟨S1600000, .i32⟩
  | .hbm, ⟨64, _⟩ => ⟨S1600000, .i32⟩
  | .hbm, ⟨65, _⟩ => ⟨S1600000x1, .i32⟩
  | .hbm, ⟨66, _⟩ => ⟨S1600000x64, .f32⟩
  | .hbm, ⟨67, _⟩ => ⟨S1600000x64, .f32⟩
  | .hbm, ⟨68, _⟩ => ⟨S_, .f32⟩
  | .hbm, ⟨69, _⟩ => ⟨S100000x64, .f32⟩
  | .hbm, ⟨70, _⟩ => ⟨S1600000x1, .i32⟩
  | .hbm, ⟨71, _⟩ => ⟨S100000x64, .f32⟩
  | .hbm, ⟨72, _⟩ => ⟨S100000x64, .f32⟩
  | .hbm, ⟨73, _⟩ => ⟨S1x64, .f32⟩
  | .hbm, ⟨74, _⟩ => ⟨S100000x64, .f32⟩
  | .hbm, ⟨75, _⟩ => ⟨S100000x64, .f32⟩
  | .hbm, ⟨76, _⟩ => ⟨S_, .f32⟩
  | .hbm, ⟨77, _⟩ => ⟨S100000x64, .f32⟩
  | .hbm, ⟨78, _⟩ => ⟨S100000x64, .f32⟩
  | .hbm, ⟨79, _⟩ => ⟨S100000x64, .f32⟩
  | .hbm, ⟨80, _⟩ => ⟨S100000x64, .f32⟩
  | .hbm, ⟨81, _⟩ => ⟨S100000x64, .i1⟩
  | .hbm, ⟨82, _⟩ => ⟨S100000x64, .f32⟩
  | .hbm, ⟨83, _⟩ => ⟨S100000x64, .f32⟩
  | .hbm, ⟨84, _⟩ => ⟨S100000x64, .f32⟩
  | .hbm, ⟨85, _⟩ => ⟨S100000x64, .f32⟩
  | .hbm, ⟨86, _⟩ => ⟨S100000x64, .f32⟩
  | .hbm, ⟨87, _⟩ => ⟨S100000x64, .f32⟩
  | .hbm, ⟨88, _⟩ => ⟨S100000x64, .f32⟩
  | .hbm, ⟨89, _⟩ => ⟨S100000x64, .f32⟩
  | .hbm, ⟨90, _⟩ => ⟨S_, .f32⟩
  | .hbm, ⟨91, _⟩ => ⟨S100000x64, .f32⟩
  | .hbm, ⟨92, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_call0_cst : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_v8 : Ref sig .tc := ⟨.hbm, 33, rfl⟩
abbrev main_cst : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_call1_cst : Ref sig .tc := ⟨.hbm, 41, rfl⟩
abbrev main_call1_v0 : Ref sig .tc := ⟨.hbm, 42, rfl⟩
abbrev main_call1_v1 : Ref sig .tc := ⟨.hbm, 43, rfl⟩
abbrev main_call1_v2 : Ref sig .tc := ⟨.hbm, 44, rfl⟩
abbrev main_call1_v3 : Ref sig .tc := ⟨.hbm, 45, rfl⟩
abbrev main_call1_v4 : Ref sig .tc := ⟨.hbm, 46, rfl⟩
abbrev main_call1_v5 : Ref sig .tc := ⟨.hbm, 47, rfl⟩
abbrev main_call1_v6 : Ref sig .tc := ⟨.hbm, 48, rfl⟩
abbrev main_call1_v7 : Ref sig .tc := ⟨.hbm, 49, rfl⟩
abbrev main_call1_v8 : Ref sig .tc := ⟨.hbm, 50, rfl⟩
abbrev main_call1_v9 : Ref sig .tc := ⟨.hbm, 51, rfl⟩
abbrev main_call1_v10 : Ref sig .tc := ⟨.hbm, 52, rfl⟩
abbrev main_call1_v11 : Ref sig .tc := ⟨.hbm, 53, rfl⟩
abbrev main_v15 : Ref sig .tc := ⟨.hbm, 54, rfl⟩
abbrev main_cst_0 : Ref sig .tc := ⟨.hbm, 55, rfl⟩
abbrev main_v16 : Ref sig .tc := ⟨.hbm, 56, rfl⟩
abbrev main_v17 : Ref sig .tc := ⟨.hbm, 57, rfl⟩
abbrev main_c : Ref sig .tc := ⟨.hbm, 58, rfl⟩
abbrev main_v18 : Ref sig .tc := ⟨.hbm, 59, rfl⟩
abbrev main_v19 : Ref sig .tc := ⟨.hbm, 60, rfl⟩
abbrev main_c_1 : Ref sig .tc := ⟨.hbm, 61, rfl⟩
abbrev main_v20 : Ref sig .tc := ⟨.hbm, 62, rfl⟩
abbrev main_v21 : Ref sig .tc := ⟨.hbm, 63, rfl⟩
abbrev main_v22 : Ref sig .tc := ⟨.hbm, 64, rfl⟩
abbrev main_v23 : Ref sig .tc := ⟨.hbm, 65, rfl⟩
abbrev main_v24 : Ref sig .tc := ⟨.hbm, 66, rfl⟩
abbrev main_v25 : Ref sig .tc := ⟨.hbm, 67, rfl⟩
abbrev main_cst_2 : Ref sig .tc := ⟨.hbm, 68, rfl⟩
abbrev main_v26 : Ref sig .tc := ⟨.hbm, 69, rfl⟩
abbrev main_v27 : Ref sig .tc := ⟨.hbm, 70, rfl⟩
abbrev main_v28 : Ref sig .tc := ⟨.hbm, 71, rfl⟩
abbrev main_v29 : Ref sig .tc := ⟨.hbm, 72, rfl⟩
abbrev main_v30 : Ref sig .tc := ⟨.hbm, 73, rfl⟩
abbrev main_v31 : Ref sig .tc := ⟨.hbm, 74, rfl⟩
abbrev main_v32 : Ref sig .tc := ⟨.hbm, 75, rfl⟩
abbrev main_call2_cst : Ref sig .tc := ⟨.hbm, 76, rfl⟩
abbrev main_call2_v0 : Ref sig .tc := ⟨.hbm, 77, rfl⟩
abbrev main_call2_v1 : Ref sig .tc := ⟨.hbm, 78, rfl⟩
abbrev main_call2_v2 : Ref sig .tc := ⟨.hbm, 79, rfl⟩
abbrev main_call2_v3 : Ref sig .tc := ⟨.hbm, 80, rfl⟩
abbrev main_call2_v4 : Ref sig .tc := ⟨.hbm, 81, rfl⟩
abbrev main_call2_v5 : Ref sig .tc := ⟨.hbm, 82, rfl⟩
abbrev main_call2_v6 : Ref sig .tc := ⟨.hbm, 83, rfl⟩
abbrev main_call2_v7 : Ref sig .tc := ⟨.hbm, 84, rfl⟩
abbrev main_call2_v8 : Ref sig .tc := ⟨.hbm, 85, rfl⟩
abbrev main_call2_v9 : Ref sig .tc := ⟨.hbm, 86, rfl⟩
abbrev main_call2_v10 : Ref sig .tc := ⟨.hbm, 87, rfl⟩
abbrev main_call2_v11 : Ref sig .tc := ⟨.hbm, 88, rfl⟩
abbrev main_v33 : Ref sig .tc := ⟨.hbm, 89, rfl⟩
abbrev main_cst_3 : Ref sig .tc := ⟨.hbm, 90, rfl⟩
abbrev main_v34 : Ref sig .tc := ⟨.hbm, 91, rfl⟩
abbrev main_v35 : Ref sig .tc := ⟨.hbm, 92, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1x64_S1600000x64_0_1 : S1x64.BroadcastsInDim S1600000x64 (![0, 1] : Fin 2 → Fin S1600000x64.rank)
  bcast_S_S1600000x64 : S_.BroadcastsInDim S1600000x64 (![] : Fin 0 → Fin S1600000x64.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  dot_S100000x64_S64x64_S100000x64_1_0_0_1_n_n_wf : DotDims.WF S100000x64 S64x64 S100000x64 [1] [0] [0] [1] [] []
  dot_S1600000x64_S64x64_S1600000x64_1_0_0_1_n_n_wf : DotDims.WF S1600000x64 S64x64 S1600000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1

variable [Facts₀]

def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S1600000x64_S64x64_S1600000x64_1_0_0_1_n_n : DotDims S1600000x64 S64x64 S1600000x64 where
  lhsContracting := [1]
  rhsContracting := [0]
  lhsNonContracting := [0]
  rhsNonContracting := [1]
  lhsBatch := []
  rhsBatch := []
  wf := dot_S1600000x64_S64x64_S1600000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.Spec.lean ====
/-
  The arithmetic that both programs compute, written once on the extended reals.

  A dense layer: entry (r, j) of `lin x w β` is the sum over k of x(r, k) · w(k, j), plus the bias β(j).
  The shifted softplus: `ssp y = max(y, 0) + log(1 + exp(-|y|)) - ln2`, where `ln2` is the single-precision
  word both programs subtract and |y| is `max y (-y)`. The two programs spell it slightly differently
  (`sspK` computes `0 - |y|`, `sspR` computes `-|y|`; both guard the sum by a comparison of `y - 0` with
  itself, which never holds on a linear order), and both spellings are `ssp`.

  Node projection, edge network and output projection are then `lin`, `ssp ∘ lin ∘ ssp ∘ lin` and `ssp ∘ lin`.
-/
import Idealize.ShloMosaic.PureOps.Ideal
import Idealize.ShloMosaic.PureOps.Ideal.Laws
import Idealize.ShloMosaic.Lib.ValueIdx

noncomputable section

namespace Cert.CF

open Idealize.ShloMosaic Idealize.ShloMosaic.ValueIdx

/-- A matrix of extended reals, indexed as the printed programs index a rank-2 array. -/
abbrev Mat (n m : Nat) : Type := (⟨2, ![n, m]⟩ : Shape).Idx → EReal

/-- The single-precision word for log 2 that both programs subtract. -/
abbrev ln2 : EReal := Ideal.ofBits .f32 0x3F317218#32

/-- The single-precision zero word, as both programs write it. -/
abbrev z32 : EReal := Ideal.ofBits .f32 0x00000000#32

theorem z32_eq : z32 = 0 := Ideal.ofBits_zero_f32

/-- Shifted softplus on the extended reals. -/
def ssp (y : EReal) : EReal := max y 0 + Ideal.log1p (Ideal.exp (-(max y (-y)))) - ln2

/-- The kernel's spelling: the exponent is `0 - |y - 0|`, the guard an ordered "not equal" of `y - 0` with itself. -/
def sspK (y : EReal) : EReal :=
  Scalar.select (Ideal.cmp .one (y - z32) (y - z32)) (y + z32)
    (max y z32 + Ideal.log1p (Ideal.exp (z32 - max (y - z32) (-(y - z32))))) - ln2

/-- The reference's spelling: the exponent is `-|y - 0|`, the guard an unordered "not equal". -/
def sspR (y : EReal) : EReal :=
  Scalar.select (Ideal.cmp .une (y - z32) (y - z32)) (y + z32)
    (max y z32 + Ideal.log1p (Ideal.exp (-(max (y - z32) (-(y - z32)))))) - ln2

theorem cmp_one_self (a : EReal) : Ideal.cmp .one a a = 0#1 := by
  simp [Ideal.cmp]

theorem cmp_une_self (a : EReal) : Ideal.cmp .une a a = 0#1 := by
  simp [Ideal.cmp]

/-- A value is never different from itself, so the guarded branch is the sum; and `0 - a = -a`. -/
theorem sspK_eq (y : EReal) : sspK y = ssp y := by
  unfold sspK ssp
  rw [cmp_one_self, select_zero, z32_eq, sub_zero, zero_sub]

theorem sspR_eq (y : EReal) : sspR y = ssp y := by
  unfold sspR ssp
  rw [cmp_une_self, select_zero, z32_eq, sub_zero]

/-- A dense layer: row r of `x` against column j of `w`, plus the bias at j. -/
def lin {n : Nat} (x : Mat n 64) (w : Mat 64 64) (β : Fin 64 → EReal) : Mat n 64 :=
  fun i => (∑ k : Fin 64, x (ix2 (i 0) k) * w (ix2 k (i 1))) + β (i 1)

theorem lin_apply {n : Nat} (x : Mat n 64) (w : Mat 64 64) (β : Fin 64 → EReal) (r : Fin n) (j : Fin 64) :
    lin x w β (ix2 r j) = (∑ k : Fin 64, x (ix2 r k) * w (ix2 k j)) + β j := rfl

/-- The edge network: two dense layers, each followed by the shifted softplus. -/
def edgeNet {n : Nat} (x : Mat n 64) (w1 : Mat 64 64) (β1 : Fin 64 → EReal) (w2 : Mat 64 64) (β2 : Fin 64 → EReal) : Mat n 64 :=
  fun i => ssp (lin (fun j => ssp (lin x w1 β1 j)) w2 β2 i)

/-- The output projection: a dense layer followed by the shifted softplus. -/
def outNet {n : Nat} (h : Mat n 64) (w : Mat 64 64) (β : Fin 64 → EReal) : Mat n 64 :=
  fun i => ssp (lin h w β i)

end Cert.CF

end
-- ==== Proof.Region0.lean ====
/- The node projection's region: after its ten grid points the output array holds the dense layer of the
   node features, the weight matrix and the bias row, whatever the buffers held when the region was entered. -/
import proofs.«101316_j40218073760108_1_alg».proof.Proof.Gen.KernelIdeal.Frame
import proofs.«101316_j40218073760108_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Idealize.ShloMosaic Idealize.ShloMosaic.TcCoe Idealize.SL.Sem
open Idealize.ShloMosaic.Pipeline (Dat Cfg Window)
open Idealize.ShloMosaic.ValueIdx Cert.CF

namespace R0

/-! ## The body's value at an index -/

/-- Along its row axis the matrix product reads the left operand at the output's row. -/
theorem lhs_row (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
/-- Along its column axis the left operand is read at the contracted index. -/
theorem lhs_col (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q
/-- Along its row axis the right operand is read at the contracted index. -/
theorem rhs_row (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q
/-- Along its column axis the right operand is read at the output's column. -/
theorem rhs_col (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- The matrix product into a zero accumulator, at entry (r, j): the sum over k of left(r, k) · right(k, j). -/
theorem matmul_at (a : FVec Ideal S10000x64 .bf16) (b : FVec Ideal S64x64 .bf16) (r : Fin 10000) (j : Fin 64) :
    matmul dot_S10000x64_S64x64_S10000x64_1_0_0_1_n_n none a b (constant (F := Ideal) S10000x64 .f32 0x00000000#32) (ix2 r j)
      = ∑ k : Fin 64, a (ix2 r k) * b (ix2 k j) := by
  refine (Ideal.matmul_constant_zero_apply dot_S10000x64_S64x64_S10000x64_1_0_0_1_n_n none a b (ix2 r j)).trans ?_
  rw [← Equiv.sum_comp (ValueIdx.contrEquiv1 dot_S10000x64_S64x64_S10000x64_1_0_0_1_n_n 64 rfl rfl).symm]
  refine Finset.sum_congr rfl fun k _ => ?_
  have hk := ValueIdx.contrEquiv1_symm_val dot_S10000x64_S64x64_S10000x64_1_0_0_1_n_n 64 rfl rfl k
  have el : dot_S10000x64_S64x64_S10000x64_1_0_0_1_n_n.lhsIdx (ix2 r j) ((ValueIdx.contrEquiv1 dot_S10000x64_S64x64_S10000x64_1_0_0_1_n_n 64 rfl rfl).symm k) = ix2 r k := funext fun a => Fin.ext (by
    match a with
    | ⟨0, _⟩ => exact lhs_row _ _
    | ⟨1, _⟩ => exact (lhs_col _ _).trans hk)
  have er : dot_S10000x64_S64x64_S10000x64_1_0_0_1_n_n.rhsIdx (ix2 r j) ((ValueIdx.contrEquiv1 dot_S10000x64_S64x64_S10000x64_1_0_0_1_n_n 64 rfl rfl).symm k) = ix2 k j := funext fun a => Fin.ext (by
    match a with
    | ⟨0, _⟩ => exact (rhs_row _ _).trans hk
    | ⟨1, _⟩ => exact rhs_col _ _)
  rw [el, er]

/-- The body's stored value at entry (r, j) of its block: row r of the node block against column j of the weight
    block, plus the bias row at j. The narrowing of the operands is the identity on the extended reals. -/
theorem pay_at (x0 : Vec Ideal S10000x64 .f32) (x1 : Vec Ideal S64x64 .f32) (x2 : Vec Ideal S1x64 .f32) (r : Fin 10000) (j : Fin 64) :
    k0_pay1 x0 x1 x2 (ix2 r j) = (∑ k : Fin 64, x0 (ix2 r k) * x1 (ix2 k j)) + x2 (ix2 0 j) := by
  unfold k0_pay1
  refine (addf_apply _ _ _).trans ?_
  refine congrArg₂ (· + ·) ?_ ?_
  · exact matmul_at _ _ r j
  · refine (broadcastTo_1b_ab_apply _ _ r j).trans ?_
    rw [shapeCast_self]

/-! ## From the blocks to the array -/

-- the TensorCore's buffer contents when the region is entered
variable (V : (c : Dev nD) → (b : Ref sig .tc) → Buf (Elt Ideal) ((c : Thread nD τ).loc b))

theorem zero_offsets : (![0, 0] : Fin 2 → Nat) = fun _ => 0 := funext fun a => by fin_cases a <;> rfl

/-- The block index maps over the ten grid points: the node block and the output block are both block t of their
    arrays' rows (and the one block of columns); the weight and the bias row are the one block of their arrays. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What grid point t writes back is block t (rows 10000 t … 10000 t + 9999) of the dense layer of the arrays as the
    region finds them: entry (p, q) of the block is row 10000 t + p of the node features against column q of the
    weights, plus the bias at q. -/
theorem flushed_eq (c : Dev nD) (t : Fin cfg0.N) :
    (dat0 (F := Ideal) V c).flushed 3 t = ((cfg0.win 3).blk t).view.read (Elt Ideal)
      (lin (n := 100000) (V c main_arg0) (V c main_arg4) (fun k => V c main_v0 (ix2 0 k))) := by
  show (cfg0.win 3).cut (grid0.coords t) ((dat0 V c).after 3 t) = _
  rw [after0_3]
  unfold out0_3
  rw [View.canon_unit_zero zero_offsets]
  simp only [View.ld_unit_zero (S := S10000x64) zero_offsets, View.ld_unit_zero (S := S64x64) zero_offsets,
    View.ld_unit_zero (S := S1x64) zero_offsets]
  obtain ⟨h00, h01, h10, h11, h20, h21, h30, h31⟩ := block_indices t
  have ht : t.val < 10 := t.isLt
  funext y
  obtain ⟨p, q, rfl⟩ : ∃ (p : Fin 10000) (q : Fin 64), y = ix2 p q := ⟨y 0, y 1, eq_ix2 y⟩
  have hp : p.val < 10000 := p.isLt
  have hr : t.val * 10000 + p.val < 100000 := by omega
  -- the output block's entry (p, q) lies at (10000 t + p, q) of the array
  have e3 : ((cfg0.win 3).blk t).view.emb (ix2 p q) = ix2 (⟨t.val * 10000 + p.val, hr⟩ : Fin 100000) q := by
    funext a; apply Fin.ext
    match a with
    | ⟨0, _⟩ => show win0_3.index t (0 : Fin 2) * 10000 + 1 * p.val = t.val * 10000 + p.val; omega
    | ⟨1, _⟩ => show win0_3.index t (1 : Fin 2) * 64 + 1 * q.val = q.val; omega
  -- the node block's entry (p, k) lies at (10000 t + p, k)
  have e0 : ∀ k : Fin 64, ((cfg0.win 0).blk t).view.emb (ix2 p k) = ix2 (⟨t.val * 10000 + p.val, hr⟩ : Fin 100000) k := by
    intro k; funext a; apply Fin.ext
    match a with
    | ⟨0, _⟩ => show win0_0.index t (0 : Fin 2) * 10000 + 1 * p.val = t.val * 10000 + p.val; omega
    | ⟨1, _⟩ => show win0_0.index t (1 : Fin 2) * 64 + 1 * k.val = k.val; omega
  -- the weight block is the weight matrix
  have e1 : ∀ k : Fin 64, ((cfg0.win 1).blk t).view.emb (ix2 k q) = ix2 k q := by
    intro k; funext a; apply Fin.ext
    match a with
    | ⟨0, _⟩ => show win0_1.index t (0 : Fin 2) * 64 + 1 * k.val = k.val; omega
    | ⟨1, _⟩ => show win0_1.index t (1 : Fin 2) * 64 + 1 * q.val = q.val; omega
  -- the bias block is the bias row
  have e2 : ((cfg0.win 2).blk t).view.emb (ix2 (0 : Fin 1) q) = ix2 (0 : Fin 1) q := by
    funext a; apply Fin.ext
    match a with
    | ⟨0, _⟩ => show win0_2.index t (0 : Fin 2) * 1 + 1 * 0 = 0; omega
    | ⟨1, _⟩ => show win0_2.index t (1 : Fin 2) * 64 + 1 * q.val = q.val; omega
  show k0_pay1 (iblk0 V c 0 t) (iblk0 V c 1 t) (iblk0 V c 2 t) (ix2 p q)
    = lin (n := 100000) (V c main_arg0) (V c main_arg4) (fun k => V c main_v0 (ix2 0 k)) (((cfg0.win 3).blk t).view.emb (ix2 p q))
  refine (pay_at _ _ _ p q).trans ?_
  refine Eq.trans ?_ (congrArg (lin (n := 100000) (V c main_arg0) (V c main_arg4) (fun k => V c main_v0 (ix2 0 k))) e3).symm
  refine Eq.trans ?_ (lin_apply _ _ _ _ _).symm
  refine congrArg₂ (· + ·) (Finset.sum_congr rfl fun k _ => congrArg₂ (· * ·) ?_ ?_) ?_
  · show V c main_arg0 (((cfg0.win 0).blk t).view.emb (ix2 p k)) = _
    exact congrArg (V c main_arg0) (e0 k)
  · show V c main_arg4 (((cfg0.win 1).blk t).view.emb (ix2 k q)) = _
    exact congrArg (V c main_arg4) (e1 k)
  · show V c main_v0 (((cfg0.win 2).blk t).view.emb (ix2 (0 : Fin 1) q)) = _
    exact congrArg (V c main_v0) e2

/-- An index of the output array is in point t's block iff each coordinate is in the block's range on its axis. -/
theorem mem_block (t : Fin cfg0.N) (i : S100000x64.Idx) :
    i ∈ ((cfg0.win 3).blk t).view.set ↔ ∀ a : Fin 2, win0_3.index t a * S10000x64.size a ≤ (i a).val ∧ (i a).val < win0_3.index t a * S10000x64.size a + S10000x64.size a := by
  show i ∈ ((View.whole main_v1).slice (win0_3.rect t)).set ↔ _
  rw [View.set_slice_whole, Rect.mem_set_unit]
  exact Iff.rfl

/-- Every index of the output array is in some grid point's block: row r is in block r / 10000. -/
theorem covered (i : S100000x64.Idx) :
    ∃ t : Fin cfg0.N, (cfg0.win 3).flush t = true ∧ i ∈ ((cfg0.win 3).blk t).view.set := by
  have hi0 : (i 0).val < 100000 := (i 0).isLt
  have hi1 : (i 1).val < 64 := (i 1).isLt
  have ht : (i 0).val / 10000 < 10 := by omega
  refine ⟨⟨(i 0).val / 10000, ht⟩, flush0_3 _, ?_⟩
  obtain ⟨-, -, -, -, -, -, h30, h31⟩ := block_indices ⟨(i 0).val / 10000, ht⟩
  rw [mem_block]
  intro a
  match a with
  | ⟨0, _⟩ =>
    show win0_3.index ⟨(i 0).val / 10000, ht⟩ (0 : Fin 2) * 10000 ≤ (i 0).val ∧ (i 0).val < win0_3.index ⟨(i 0).val / 10000, ht⟩ (0 : Fin 2) * 10000 + 10000
    have h30' : win0_3.index ⟨(i 0).val / 10000, ht⟩ (0 : Fin 2) = (i 0).val / 10000 := h30
    omega
  | ⟨1, _⟩ =>
    show win0_3.index ⟨(i 0).val / 10000, ht⟩ (1 : Fin 2) * 64 ≤ (i 1).val ∧ (i 1).val < win0_3.index ⟨(i 0).val / 10000, ht⟩ (1 : Fin 2) * 64 + 64
    omega

end R0

-- the TensorCore's buffer contents when the region is entered
variable (V : (c : Dev nD) → (b : Ref sig .tc) → Buf (Elt Ideal) ((c : Thread nD τ).loc b))

/-- The array of the first region's output window after all its grid points. -/
theorem arr0 (c : Dev nD) :
    (dat0 (F := Ideal) V c).arrAt 3 cfg0.N
      = lin (n := 100000) (V c main_arg0) (V c main_arg4) (fun k => V c main_v0 (ix2 0 k)) :=
  (dat0 (F := Ideal) V c).arrAt_eq_of_cover 3 _ (fun t _ => R0.flushed_eq V c t) R0.covered

end Cert.KernelIdeal.Val

end
-- ==== Proof.Region1.lean ====
/- The edge network's region: after its two hundred grid points the output array holds the two-layer network of
   the edge features, whatever the buffers held when the region was entered. -/
import proofs.«101316_j40218073760108_1_alg».proof.Proof.Gen.KernelIdeal.Frame
import proofs.«101316_j40218073760108_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Idealize.ShloMosaic Idealize.ShloMosaic.TcCoe Idealize.SL.Sem
open Idealize.ShloMosaic.Pipeline (Dat Cfg Window)
open Idealize.ShloMosaic.ValueIdx Cert.CF

-- the TensorCore's buffer contents when the region is entered
variable (V : (c : Dev nD) → (b : Ref sig .tc) → Buf (Elt Ideal) ((c : Thread nD τ).loc b))

namespace R1

/-! ## The matrix unit's contraction at an index -/

/-- The left operand's row coordinate is the output's row. -/
theorem lhs_dot_0 (i : S8000x64.Idx) (q : dot_S8000x64_S64x64_S8000x64_1_0_0_1_n_n.contr.Idx) :
    (dot_S8000x64_S64x64_S8000x64_1_0_0_1_n_n.lhsIdx i q 0).val = (i 0).val := by
  unfold DotDims.lhsIdx
  rw [dif_neg (show ¬(0 : Fin S8000x64.rank) ∈ dot_S8000x64_S64x64_S8000x64_1_0_0_1_n_n.lhsBatch by decide), dif_pos (show (0 : Fin S8000x64.rank) ∈ dot_S8000x64_S64x64_S8000x64_1_0_0_1_n_n.lhsNonContracting by decide)]
  rfl
/-- The left operand's column coordinate is the contracted one. -/
theorem lhs_dot_1 (i : S8000x64.Idx) (q : dot_S8000x64_S64x64_S8000x64_1_0_0_1_n_n.contr.Idx) :
    (dot_S8000x64_S64x64_S8000x64_1_0_0_1_n_n.lhsIdx i q 1).val = (q ⟨0, by decide⟩).val :=
  dot_S8000x64_S64x64_S8000x64_1_0_0_1_n_n.lhsIdx_val_of_single rfl i q
/-- The right operand's row coordinate is the contracted one. -/
theorem rhs_dot_0 (i : S8000x64.Idx) (q : dot_S8000x64_S64x64_S8000x64_1_0_0_1_n_n.contr.Idx) :
    (dot_S8000x64_S64x64_S8000x64_1_0_0_1_n_n.rhsIdx i q 0).val = (q ⟨0, by decide⟩).val :=
  dot_S8000x64_S64x64_S8000x64_1_0_0_1_n_n.rhsIdx_val_of_single rfl i q
/-- The right operand's column coordinate is the output's column. -/
theorem rhs_dot_1 (i : S8000x64.Idx) (q : dot_S8000x64_S64x64_S8000x64_1_0_0_1_n_n.contr.Idx) :
    (dot_S8000x64_S64x64_S8000x64_1_0_0_1_n_n.rhsIdx i q 1).val = (i 1).val := by
  unfold DotDims.rhsIdx
  rw [dif_neg (show ¬(1 : Fin S64x64.rank) ∈ dot_S8000x64_S64x64_S8000x64_1_0_0_1_n_n.rhsBatch by decide), dif_pos (show (1 : Fin S64x64.rank) ∈ dot_S8000x64_S64x64_S8000x64_1_0_0_1_n_n.rhsNonContracting by decide)]
  rfl

/-- A block of rows times a square matrix into a zero accumulator: entry (r, j) is the sum over k of a(r, k) · w(k, j). -/
theorem matmul_zero_apply {φ₁ φ₂ : FTy} (a : FVec Ideal S8000x64 φ₁) (w : FVec Ideal S64x64 φ₂) (r : Fin 8000) (j : Fin 64) :
    matmul (F := Ideal) dot_S8000x64_S64x64_S8000x64_1_0_0_1_n_n none a w (constant (F := Ideal) S8000x64 .f32 0x00000000#32) (ix2 r j)
      = ∑ k : Fin 64, a (ix2 r k) * w (ix2 k j) := by
  simp only [matmul]
  rw [Ideal.matmul_constant_zero_apply, ← Equiv.sum_comp (ValueIdx.contrEquiv1 dot_S8000x64_S64x64_S8000x64_1_0_0_1_n_n 64 rfl rfl).symm]
  refine Finset.sum_congr rfl fun k _ => ?_
  have hk := ValueIdx.contrEquiv1_symm_val dot_S8000x64_S64x64_S8000x64_1_0_0_1_n_n 64 rfl rfl k
  have el : dot_S8000x64_S64x64_S8000x64_1_0_0_1_n_n.lhsIdx (ix2 r j) ((ValueIdx.contrEquiv1 dot_S8000x64_S64x64_S8000x64_1_0_0_1_n_n 64 rfl rfl).symm k) = ix2 r k := funext fun a => Fin.ext (by
    match a with
    | ⟨0, _⟩ => exact lhs_dot_0 _ _
    | ⟨1, _⟩ => exact (lhs_dot_1 _ _).trans hk)
  have er : dot_S8000x64_S64x64_S8000x64_1_0_0_1_n_n.rhsIdx (ix2 r j) ((ValueIdx.contrEquiv1 dot_S8000x64_S64x64_S8000x64_1_0_0_1_n_n 64 rfl rfl).symm k) = ix2 k j := funext fun a => Fin.ext (by
    match a with
    | ⟨0, _⟩ => exact (rhs_dot_0 _ _).trans hk
    | ⟨1, _⟩ => exact rhs_dot_1 _ _)
  rw [el, er]

/-! ## The two dense layers and the shifted softplus, entry by entry -/

/-- The bias row, cast to its own shape and repeated down the rows, reads the row's entry at the column. -/
theorem bias_apply (x : Vec Ideal S1x64 .f32) (r : Fin 8000) (j : Fin 64) :
    broadcastTo S8000x64 (shapeCast S1x64 x shapeCasts_S1x64_S1x64) broadcasts_S1x64_S8000x64 (ix2 r j) = x (ix2 0 j) := by
  rw [shapeCast_self]
  exact broadcastTo_1b_ab_apply x _ r j

/-- The kernel's pointwise softplus tail of a block of pre-activations is, entry by entry, the kernel's scalar spelling
    of the shifted softplus. -/
theorem tail_apply (Y : FVec Ideal S8000x64 .f32) (i : S8000x64.Idx) :
    subf
      (select
        (cmpf .one (subf Y (broadcast S8000x64 (Scalar.ofBits (F := Ideal) .f32 0x00000000#32)))
          (subf Y (broadcast S8000x64 (Scalar.ofBits (F := Ideal) .f32 0x00000000#32))))
        (addf Y (broadcast S8000x64 (Scalar.ofBits (F := Ideal) .f32 0x00000000#32)))
        (addf (maximumf Y (broadcast S8000x64 (Scalar.ofBits (F := Ideal) .f32 0x00000000#32)))
          (log1p (exp (subf (broadcast S8000x64 (Scalar.ofBits (F := Ideal) .f32 0x00000000#32))
            (absf (subf Y (broadcast S8000x64 (Scalar.ofBits (F := Ideal) .f32 0x00000000#32)))))))))
      (broadcast S8000x64 (Scalar.ofBits (F := Ideal) .f32 0x3F317218#32)) i = sspK (Y i) := rfl

/-- Narrowing a block to the matrix unit's operand format changes no entry on the extended reals. -/
theorem trunc_apply (X : FVec Ideal S8000x64 .f32) (i : S8000x64.Idx) : truncf .bf16 X bitsLt_bf16_f32 i = X i := rfl

/-- The first layer's pre-activation: entry (r, k) of the edge block against W1, plus b1 at k. -/
theorem layer1_apply (x0 : Vec Ideal S8000x64 .f32) (x1 : Vec Ideal S64x64 .f32) (x2 : Vec Ideal S1x64 .f32) (r : Fin 8000) (k : Fin 64) :
    addf (matmul (F := Ideal) dot_S8000x64_S64x64_S8000x64_1_0_0_1_n_n none (truncf .bf16 x0 bitsLt_bf16_f32)
        (truncf .bf16 x1 bitsLt_bf16_f32) (constant (F := Ideal) S8000x64 .f32 0x00000000#32))
      (broadcastTo S8000x64 (shapeCast S1x64 x2 shapeCasts_S1x64_S1x64) broadcasts_S1x64_S8000x64) (ix2 r k)
      = lin x0 x1 (fun k => x2 (ix2 0 k)) (ix2 r k) := by
  refine (addf_apply _ _ _).trans ?_
  rw [bias_apply, matmul_zero_apply, lin_apply]
  rfl

/-- The second layer's pre-activation: the first layer's activations against W2, plus b2. -/
theorem pay2_apply (x0 : Vec Ideal S8000x64 .f32) (x1 : Vec Ideal S64x64 .f32) (x2 : Vec Ideal S1x64 .f32)
    (x3 : Vec Ideal S64x64 .f32) (x4 : Vec Ideal S1x64 .f32) (r : Fin 8000) (j : Fin 64) :
    k1_pay2 (F := Ideal) x0 x1 x2 x3 x4 (ix2 r j)
      = lin (fun i => ssp (lin x0 x1 (fun k => x2 (ix2 0 k)) i)) x3 (fun k => x4 (ix2 0 k)) (ix2 r j) := by
  unfold k1_pay2
  rw [lin_apply]
  refine (addf_apply _ _ _).trans ?_
  rw [bias_apply]
  refine congrArg (· + x4 (ix2 0 j)) ?_
  rw [matmul_zero_apply]
  refine Finset.sum_congr rfl fun k _ => ?_
  refine congrArg (· * x3 (ix2 k j)) ?_
  refine (trunc_apply _ _).trans ?_
  refine (tail_apply _ _).trans ?_
  rw [sspK_eq, layer1_apply]

/-- The stored block: the shifted softplus of the second layer's pre-activation, entry by entry. -/
theorem pay1_apply (x0 : Vec Ideal S8000x64 .f32) (x1 : Vec Ideal S64x64 .f32) (x2 : Vec Ideal S1x64 .f32)
    (x3 : Vec Ideal S64x64 .f32) (x4 : Vec Ideal S1x64 .f32) (i : S8000x64.Idx) :
    k1_pay1 (F := Ideal) (k1_pay3 x0 x1 x2 x3 x4) (k1_pay5 x0 x1 x2 x3 x4) (k1_pay6 x0 x1 x2 x3 x4) (k1_pay7 x0 x1 x2 x3 x4) k1_pay8 i
      = sspK (k1_pay2 x0 x1 x2 x3 x4 i) := by
  unfold k1_pay1 k1_pay3 k1_pay5 k1_pay6 k1_pay7 k1_pay8 k1_pay4
  exact tail_apply _ _

/-- The stored block is the edge network of the loaded blocks, entry by entry. -/
theorem out_apply (x0 : Vec Ideal S8000x64 .f32) (x1 : Vec Ideal S64x64 .f32) (x2 : Vec Ideal S1x64 .f32)
    (x3 : Vec Ideal S64x64 .f32) (x4 : Vec Ideal S1x64 .f32) (r : Fin 8000) (j : Fin 64) :
    k1_pay1 (F := Ideal) (k1_pay3 x0 x1 x2 x3 x4) (k1_pay5 x0 x1 x2 x3 x4) (k1_pay6 x0 x1 x2 x3 x4) (k1_pay7 x0 x1 x2 x3 x4) k1_pay8 (ix2 r j)
      = edgeNet x0 x1 (fun k => x2 (ix2 0 k)) x3 (fun k => x4 (ix2 0 k)) (ix2 r j) := by
  rw [pay1_apply, sspK_eq, pay2_apply]
  rfl

/-- Row r of the network depends on row r of the features only, and on the weights and biases entry by entry. -/
theorem edgeNet_congr {n m : Nat} (x : Mat n 64) (x' : Mat m 64) (w1 w1' : Mat 64 64) (β1 β1' : Fin 64 → EReal)
    (w2 w2' : Mat 64 64) (β2 β2' : Fin 64 → EReal) (r : Fin n) (r' : Fin m) (j : Fin 64)
    (hx : ∀ l, x (ix2 r l) = x' (ix2 r' l)) (hw1 : ∀ a b, w1 (ix2 a b) = w1' (ix2 a b)) (hβ1 : ∀ k, β1 k = β1' k)
    (hw2 : ∀ a b, w2 (ix2 a b) = w2' (ix2 a b)) (hβ2 : ∀ k, β2 k = β2' k) :
    edgeNet x w1 β1 w2 β2 (ix2 r j) = edgeNet x' w1' β1' w2' β2' (ix2 r' j) := by
  have e1 : w1 = w1' := funext fun i => (congrArg w1 (eq_ix2 i)).trans ((hw1 (i 0) (i 1)).trans (congrArg w1' (eq_ix2 i).symm))
  have e2 : w2 = w2' := funext fun i => (congrArg w2 (eq_ix2 i)).trans ((hw2 (i 0) (i 1)).trans (congrArg w2' (eq_ix2 i).symm))
  have e3 : β1 = β1' := funext hβ1
  have e4 : β2 = β2' := funext hβ2
  subst e1 e2 e3 e4
  show ssp ((∑ k : Fin 64, ssp ((∑ l : Fin 64, x (ix2 r l) * w1 (ix2 l k)) + β1 k) * w2 (ix2 k j)) + β2 j)
    = ssp ((∑ k : Fin 64, ssp ((∑ l : Fin 64, x' (ix2 r' l) * w1 (ix2 l k)) + β1 k) * w2 (ix2 k j)) + β2 j)
  simp only [hx]

/-! ## From the blocks to the array -/

theorem hz : (![0, 0] : Fin 2 → Nat) = fun _ => 0 := funext fun a => by fin_cases a <;> rfl

/-- The edge network of the arrays the region finds: what the output array ends holding. -/
abbrev netOf (c : Dev nD) : Mat 1600000 64 :=
  edgeNet (n := 1600000) (V c main_arg1) (V c main_arg6) (fun k => V c main_v2 (ix2 0 k)) (V c main_arg8) (fun k => V c main_v3 (ix2 0 k))

/-- The printed index maps over the grid: point t reads and writes row block t; the weights and biases are one block. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row p of point t's block is row t · 8000 + p of the array. -/
abbrev rowOf (t : Fin cfg1.N) (p : Fin 8000) : Fin 1600000 :=
  ⟨t.val * 8000 + p.val, by have ht : t.val < 200 := t.isLt; have hp := p.isLt; omega⟩

/-- The edge block of point t reads the features at rows t · 8000 + p. -/
theorem blk0_apply (c : Dev nD) (t : Fin cfg1.N) (p : Fin 8000) (l : Fin 64) :
    iblk1 V c 0 t (ix2 p l) = V c main_arg1 (ix2 (rowOf t p) l) := by
  obtain ⟨e0, e1, -⟩ := idx_facts t
  show V c main_arg1 (((cfg1.win 0).blk t).view.emb (ix2 p l)) = _
  refine congrArg (V c main_arg1) (funext fun a => Fin.ext ?_)
  match a with
  | ⟨0, _⟩ => show win1_0.index t (0 : Fin 2) * 8000 + 1 * p.val = t.val * 8000 + p.val; rw [e0]; omega
  | ⟨1, _⟩ => show win1_0.index t (1 : Fin 2) * 64 + 1 * l.val = l.val; rw [e1]; omega

/-- The first weight block is the whole first weight matrix. -/
theorem blk1_apply (c : Dev nD) (t : Fin cfg1.N) (a b : Fin 64) :
    iblk1 V c 1 t (ix2 a b) = V c main_arg6 (ix2 a b) := by
  obtain ⟨-, -, e0, e1, -⟩ := idx_facts t
  show V c main_arg6 (((cfg1.win 1).blk t).view.emb (ix2 a b)) = _
  refine congrArg (V c main_arg6) (funext fun d => Fin.ext ?_)
  match d with
  | ⟨0, _⟩ => show win1_1.index t (0 : Fin 2) * 64 + 1 * a.val = a.val; rw [e0]; omega
  | ⟨1, _⟩ => show win1_1.index t (1 : Fin 2) * 64 + 1 * b.val = b.val; rw [e1]; omega

/-- The first bias block is the whole first bias row. -/
theorem blk2_apply (c : Dev nD) (t : Fin cfg1.N) (b : Fin 64) :
    iblk1 V c 2 t (ix2 0 b) = V c main_v2 (ix2 0 b) := by
  obtain ⟨-, -, -, -, e0, e1, -⟩ := idx_facts t
  show V c main_v2 (((cfg1.win 2).blk t).view.emb (ix2 0 b)) = _
  refine congrArg (V c main_v2) (funext fun d => Fin.ext ?_)
  match d with
  | ⟨0, _⟩ => show win1_2.index t (0 : Fin 2) * 1 + 1 * 0 = 0; rw [e0]
  | ⟨1, _⟩ => show win1_2.index t (1 : Fin 2) * 64 + 1 * b.val = b.val; rw [e1]; omega

/-- The second weight block is the whole second weight matrix. -/
theorem blk3_apply (c : Dev nD) (t : Fin cfg1.N) (a b : Fin 64) :
    iblk1 V c 3 t (ix2 a b) = V c main_arg8 (ix2 a b) := by
  obtain ⟨-, -, -, -, -, -, e0, e1, -⟩ := idx_facts t
  show V c main_arg8 (((cfg1.win 3).blk t).view.emb (ix2 a b)) = _
  refine congrArg (V c main_arg8) (funext fun d => Fin.ext ?_)
  match d with
  | ⟨0, _⟩ => show win1_3.index t (0 : Fin 2) * 64 + 1 * a.val = a.val; rw [e0]; omega
  | ⟨1, _⟩ => show win1_3.index t (1 : Fin 2) * 64 + 1 * b.val = b.val; rw [e1]; omega

/-- The second bias block is the whole second bias row. -/
theorem blk4_apply (c : Dev nD) (t : Fin cfg1.N) (b : Fin 64) :
    iblk1 V c 4 t (ix2 0 b) = V c main_v3 (ix2 0 b) := by
  obtain ⟨-, -, -, -, -, -, -, -, e0, e1, -⟩ := idx_facts t
  show V c main_v3 (((cfg1.win 4).blk t).view.emb (ix2 0 b)) = _
  refine congrArg (V c main_v3) (funext fun d => Fin.ext ?_)
  match d with
  | ⟨0, _⟩ => show win1_4.index t (0 : Fin 2) * 1 + 1 * 0 = 0; rw [e0]
  | ⟨1, _⟩ => show win1_4.index t (1 : Fin 2) * 64 + 1 * b.val = b.val; rw [e1]; omega

/-- Entry (p, q) of point t's output block lies at (t · 8000 + p, q) of the output array. -/
theorem emb5_apply (t : Fin cfg1.N) (p : Fin 8000) (q : Fin 64) :
    ((cfg1.win 5).blk t).view.emb (ix2 p q) = ix2 (rowOf t p) q := by
  obtain ⟨-, -, -, -, -, -, -, -, -, -, e0, e1⟩ := idx_facts t
  refine funext fun d => Fin.ext ?_
  match d with
  | ⟨0, _⟩ => show win1_5.index t (0 : Fin 2) * 8000 + 1 * p.val = t.val * 8000 + p.val; rw [e0]; omega
  | ⟨1, _⟩ => show win1_5.index t (1 : Fin 2) * 64 + 1 * q.val = q.val; rw [e1]; omega

/-- What point t writes back is block t of the edge network of the arrays the region finds. -/
theorem flushed_eq (c : Dev nD) (t : Fin cfg1.N) :
    (dat1 (F := Ideal) V c).flushed 5 t = ((cfg1.win 5).blk t).view.read (Elt Ideal) (netOf V c) := by
  show (cfg1.win 5).cut (grid1.coords t) ((dat1 V c).after 5 t) = _
  rw [after1_5]
  unfold out1_5
  rw [View.canon_unit_zero hz]
  simp only [View.ld_unit_zero (S := S8000x64) hz, View.ld_unit_zero (S := S64x64) hz, View.ld_unit_zero (S := S1x64) hz]
  funext y
  obtain ⟨p, q, rfl⟩ : ∃ (p : Fin 8000) (q : Fin 64), y = ix2 p q := ⟨y 0, y 1, eq_ix2 y⟩
  refine (out_apply (iblk1 V c 0 t) (iblk1 V c 1 t) (iblk1 V c 2 t) (iblk1 V c 3 t) (iblk1 V c 4 t) p q).trans ?_
  rw [View.read_apply, emb5_apply]
  exact edgeNet_congr _ _ _ _ _ _ _ _ _ _ p (rowOf t p) q (fun l => blk0_apply V c t p l) (fun a b => blk1_apply V c t a b)
    (fun k => blk2_apply V c t k) (fun a b => blk3_apply V c t a b) (fun k => blk4_apply V c t k)

/-- An index of the output array is in point t's block iff each coordinate is in the block's range on its axis. -/
theorem mem_blk (t : Fin cfg1.N) (i : S1600000x64.Idx) :
    i ∈ ((cfg1.win 5).blk t).view.set ↔ ∀ a : Fin 2, win1_5.index t a * S8000x64.size a ≤ (i a).val ∧ (i a).val < win1_5.index t a * S8000x64.size a + S8000x64.size a := by
  show i ∈ ((View.whole main_v4).slice (win1_5.rect t)).set ↔ _
  rw [View.set_slice_whole, Rect.mem_set_unit]
  exact Iff.rfl

/-- Every row of the output array is in some point's block: row r in the block of point r / 8000. -/
theorem cover (i : S1600000x64.Idx) :
    ∃ t : Fin cfg1.N, (cfg1.win 5).flush t = true ∧ i ∈ ((cfg1.win 5).blk t).view.set := by
  have hi0 : (i 0).val < 1600000 := (i 0).isLt
  have hi1 : (i 1).val < 64 := (i 1).isLt
  obtain ⟨t, ht⟩ : ∃ t : Fin cfg1.N, t.val = (i 0).val / 8000 := ⟨⟨(i 0).val / 8000, by show _ < 200; omega⟩, rfl⟩
  obtain ⟨-, -, -, -, -, -, -, -, -, -, e0, e1⟩ := idx_facts t
  refine ⟨t, flush1_5 t, ?_⟩
  rw [mem_blk]
  intro a
  match a with
  | ⟨0, _⟩ => show win1_5.index t (0 : Fin 2) * 8000 ≤ (i 0).val ∧ (i 0).val < win1_5.index t (0 : Fin 2) * 8000 + 8000; rw [e0]; omega
  | ⟨1, _⟩ => show win1_5.index t (1 : Fin 2) * 64 ≤ (i 1).val ∧ (i 1).val < win1_5.index t (1 : Fin 2) * 64 + 64; rw [e1]; omega

end R1

/-- The array of the second region's output window after all its grid points. -/
theorem arr1 (c : Dev nD) :
    (dat1 (F := Ideal) V c).arrAt 5 cfg1.N
      = edgeNet (n := 1600000) (V c main_arg1) (V c main_arg6) (fun k => V c main_v2 (ix2 0 k)) (V c main_arg8) (fun k => V c main_v3 (ix2 0 k)) :=
  (dat1 V c).arrAt_eq_of_cover 5 (R1.netOf V c) (fun t _ => R1.flushed_eq V c t) R1.cover

end Cert.KernelIdeal.Val

end
-- ==== Proof.Region2.lean ====
/- The output projection's region: after its ten grid points the output array holds the dense layer followed by the
   shifted softplus of the aggregated messages, whatever the buffers held when the region was entered. -/
import proofs.«101316_j40218073760108_1_alg».proof.Proof.Gen.KernelIdeal.Frame
import proofs.«101316_j40218073760108_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Idealize.ShloMosaic Idealize.ShloMosaic.TcCoe Idealize.SL.Sem
open Idealize.ShloMosaic.Pipeline (Dat Cfg Window)
open Idealize.ShloMosaic.ValueIdx Cert.CF

-- the TensorCore's buffer contents when the region is entered
variable (V : (c : Dev nD) → (b : Ref sig .tc) → Buf (Elt Ideal) ((c : Thread nD τ).loc b))

namespace R2

/-! ## The body's result at an index -/

/-- The left operand of the product is read at the output's row … -/
theorem lhs_axis0 (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
/-- … and the contraction index, -/
theorem lhs_axis1 (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q
/-- the right operand at the contraction index … -/
theorem rhs_axis0 (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q
/-- … and the output's column. -/
theorem rhs_axis1 (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- The matrix product into a zero accumulator, at row r and column j: the sum over k of a(r, k) · b(k, j). -/
theorem matmul_at {φ₁ φ₂ : FTy} (a : FVec Ideal S10000x64 φ₁) (b : FVec Ideal S64x64 φ₂) (r : Fin 10000) (j : Fin 64) :
    matmul dot_S10000x64_S64x64_S10000x64_1_0_0_1_n_n none a b (constant (F := Ideal) S10000x64 .f32 0x00000000#32) (ix2 r j)
      = ∑ k : Fin 64, a (ix2 r k) * b (ix2 k j) := by
  show FloatOps.matmul dot_S10000x64_S64x64_S10000x64_1_0_0_1_n_n none a b (constant (F := Ideal) S10000x64 .f32 0x00000000#32) (ix2 r j) = _
  rw [Ideal.matmul_constant_zero_apply, ← Equiv.sum_comp (ValueIdx.contrEquiv1 dot_S10000x64_S64x64_S10000x64_1_0_0_1_n_n 64 rfl rfl).symm]
  refine Finset.sum_congr rfl fun k _ => ?_
  have hk := ValueIdx.contrEquiv1_symm_val dot_S10000x64_S64x64_S10000x64_1_0_0_1_n_n 64 rfl rfl k
  have el : dot_S10000x64_S64x64_S10000x64_1_0_0_1_n_n.lhsIdx (ix2 r j) ((ValueIdx.contrEquiv1 dot_S10000x64_S64x64_S10000x64_1_0_0_1_n_n 64 rfl rfl).symm k) = ix2 r k := funext fun a => Fin.ext (by
    match a with
    | ⟨0, _⟩ => exact lhs_axis0 _ _
    | ⟨1, _⟩ => exact (lhs_axis1 _ _).trans hk)
  have er : dot_S10000x64_S64x64_S10000x64_1_0_0_1_n_n.rhsIdx (ix2 r j) ((ValueIdx.contrEquiv1 dot_S10000x64_S64x64_S10000x64_1_0_0_1_n_n 64 rfl rfl).symm k) = ix2 k j := funext fun a => Fin.ext (by
    match a with
    | ⟨0, _⟩ => exact (rhs_axis0 _ _).trans hk
    | ⟨1, _⟩ => exact rhs_axis1 _ _)
  rw [el, er]

/-- The body's result at row r and column j of a block: the shifted softplus of the dense layer there — the sum over k
    of x0(r, k) · x1(k, j), plus the bias row's entry j. -/
theorem pay_at (x0 : Vec Ideal S10000x64 .f32) (x1 : Vec Ideal S64x64 .f32) (x2 : Vec Ideal S1x64 .f32)
    (r : Fin 10000) (j : Fin 64) :
    k2_pay1 (F := Ideal) x0 x1 x2 (ix2 r j) = ssp ((∑ k : Fin 64, x0 (ix2 r k) * x1 (ix2 k j)) + x2 (ix2 0 j)) := by
  unfold k2_pay1
  rw [shapeCast_self, shapeCast_self]
  -- the tail of the body is the kernel's spelling of the shifted softplus, entry by entry
  show sspK (matmul dot_S10000x64_S64x64_S10000x64_1_0_0_1_n_n none (truncf .bf16 x0 bitsLt_bf16_f32) (truncf .bf16 x1 bitsLt_bf16_f32)
      (constant (F := Ideal) S10000x64 .f32 0x00000000#32) (ix2 r j)
    + broadcastTo S10000x64 x2 broadcasts_S1x64_S10000x64 (ix2 r j)) = _
  -- the bias row broadcast down the rows reads its entry j
  have hb : broadcastTo S10000x64 x2 broadcasts_S1x64_S10000x64 (ix2 r j) = x2 (ix2 0 j) :=
    broadcastTo_apply x2 _ (ix2 r j) (ix2 0 j) (fun a => by
      match a with
      | ⟨0, _⟩ => rfl
      | ⟨1, _⟩ => rfl)
  rw [sspK_eq, matmul_at, hb]
  -- narrowing the operands' format changes no extended real
  rfl

/-! ## What a grid point writes back -/

/-- Offsets written as a two-entry vector of zeros are the zero function. -/
theorem zero_off : (![0, 0] : Fin 2 → Nat) = fun _ => 0 := funext fun a => by fin_cases a <;> rfl

/-- The printed index maps over the ten grid points: the aggregated messages and the output move together, block t
    at point t, in the one block column; the weight and the bias row stay at their one block. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- Row p, column k of the aggregated messages' block at point t is row t · 10000 + p, column k of the array. -/
theorem emb_in (t : Fin cfg2.N) (p : Fin 10000) (k : Fin 64) :
    ((cfg2.win 0).blk t).view.emb (ix2 p k)
      = ix2 (⟨t.val * 10000 + p.val, by have ht : t.val < 10 := t.isLt; omega⟩ : Fin 100000) k := by
  obtain ⟨e0, e1, -⟩ := idx_facts t
  funext a; apply Fin.ext
  match a with
  | ⟨0, _⟩ => show win2_0.index t (0 : Fin 2) * 10000 + 1 * p.val = t.val * 10000 + p.val; omega
  | ⟨1, _⟩ => show win2_0.index t (1 : Fin 2) * 64 + 1 * k.val = k.val; omega

/-- The weight's one block is the weight. -/
theorem emb_w (t : Fin cfg2.N) (k : Fin 64) (q : Fin 64) :
    ((cfg2.win 1).blk t).view.emb (ix2 k q) = ix2 k q := by
  obtain ⟨-, -, e0, e1, -⟩ := idx_facts t
  funext a; apply Fin.ext
  match a with
  | ⟨0, _⟩ => show win2_1.index t (0 : Fin 2) * 64 + 1 * k.val = k.val; omega
  | ⟨1, _⟩ => show win2_1.index t (1 : Fin 2) * 64 + 1 * q.val = q.val; omega

/-- The bias row's one block is the bias row. -/
theorem emb_b (t : Fin cfg2.N) (q : Fin 64) :
    ((cfg2.win 2).blk t).view.emb (ix2 0 q) = ix2 0 q := by
  obtain ⟨-, -, -, -, e0, e1, -⟩ := idx_facts t
  funext a; apply Fin.ext
  match a with
  | ⟨0, _⟩ => show win2_2.index t (0 : Fin 2) * 1 + 1 * 0 = 0; omega
  | ⟨1, _⟩ => show win2_2.index t (1 : Fin 2) * 64 + 1 * q.val = q.val; omega

/-- Row p, column q of the output's block at point t is row t · 10000 + p, column q of the array. -/
theorem emb_out (t : Fin cfg2.N) (p : Fin 10000) (q : Fin 64) :
    ((cfg2.win 3).blk t).view.emb (ix2 p q)
      = ix2 (⟨t.val * 10000 + p.val, by have ht : t.val < 10 := t.isLt; omega⟩ : Fin 100000) q := by
  obtain ⟨-, -, -, -, -, -, e0, e1⟩ := idx_facts t
  funext a; apply Fin.ext
  match a with
  | ⟨0, _⟩ => show win2_3.index t (0 : Fin 2) * 10000 + 1 * p.val = t.val * 10000 + p.val; omega
  | ⟨1, _⟩ => show win2_3.index t (1 : Fin 2) * 64 + 1 * q.val = q.val; omega

/-- Entry (p, q) of the body's result over the blocks at point t, spelt over the arrays, is entry (t · 10000 + p, q)
    of the dense layer followed by the shifted softplus. -/
theorem block_eq (h : Mat 100000 64) (w : Mat 64 64) (b : Mat 1 64) (t : Fin cfg2.N) (p : Fin 10000) (q : Fin 64) :
    ssp ((∑ k : Fin 64, h (((cfg2.win 0).blk t).view.emb (ix2 p k)) * w (((cfg2.win 1).blk t).view.emb (ix2 k q)))
        + b (((cfg2.win 2).blk t).view.emb (ix2 0 q)))
      = outNet h w (fun k => b (ix2 0 k)) (((cfg2.win 3).blk t).view.emb (ix2 p q)) := by
  have hs : (∑ k : Fin 64, h (((cfg2.win 0).blk t).view.emb (ix2 p k)) * w (((cfg2.win 1).blk t).view.emb (ix2 k q)))
      = ∑ k : Fin 64, h (ix2 (⟨t.val * 10000 + p.val, by have ht : t.val < 10 := t.isLt; omega⟩ : Fin 100000) k) * w (ix2 k q) :=
    Finset.sum_congr rfl fun k _ => by rw [emb_in, emb_w]
  rw [hs, emb_out, emb_b]
  rfl

/-- What point t writes back is block t of the dense layer followed by the shifted softplus, of the arrays as the
    region finds them: entry (p, q) of the body's result reads row t · 10000 + p of the aggregated messages, column q
    of the weight and entry q of the bias row, and so does entry (t · 10000 + p, q) of the layer. -/
theorem flushed_eq (c : Dev nD) (t : Fin cfg2.N) :
    (dat2 (F := Ideal) V c).flushed 3 t
      = ((cfg2.win 3).blk t).view.read (Elt Ideal)
          (outNet (n := 100000) (V c main_v15) (V c main_arg10) (fun k => V c main_v16 (ix2 0 k))) := by
  show (cfg2.win 3).cut (grid2.coords t) ((dat2 V c).after 3 t) = _
  rw [after2_3]
  unfold out2_3
  rw [View.canon_unit_zero zero_off]
  simp only [View.ld_unit_zero (S := S10000x64) zero_off, View.ld_unit_zero (S := S64x64) zero_off,
    View.ld_unit_zero (S := S1x64) zero_off]
  funext y
  obtain ⟨p, q, rfl⟩ : ∃ (p : Fin 10000) (q : Fin 64), y = ix2 p q := ⟨y 0, y 1, eq_ix2 y⟩
  show k2_pay1 (F := Ideal) (iblk2 V c 0 t) (iblk2 V c 1 t) (iblk2 V c 2 t) (ix2 p q)
    = outNet (n := 100000) (V c main_v15) (V c main_arg10) (fun k => V c main_v16 (ix2 0 k))
        (((cfg2.win 3).blk t).view.emb (ix2 p q))
  rw [pay_at]
  exact block_eq (V c main_v15) (V c main_arg10) (V c main_v16) t p q

/-! ## From the blocks to the array -/

/-- An index of the output array is in point t's block iff each coordinate is in the block's range on its axis. -/
theorem mem_blk (t : Fin cfg2.N) (i : S100000x64.Idx) :
    i ∈ ((cfg2.win 3).blk t).view.set ↔ ∀ a : Fin 2, win2_3.index t a * S10000x64.size a ≤ (i a).val
      ∧ (i a).val < win2_3.index t a * S10000x64.size a + S10000x64.size a := by
  show i ∈ ((View.whole main_v17).slice (win2_3.rect t)).set ↔ _
  rw [View.set_slice_whole, Rect.mem_set_unit]
  exact Iff.rfl

/-- Every index of the output array is in some point's block: row r is in the block of point r / 10000. -/
theorem cover (i : S100000x64.Idx) :
    ∃ t : Fin cfg2.N, (cfg2.win 3).flush t = true ∧ i ∈ ((cfg2.win 3).blk t).view.set := by
  have hi0 : (i 0).val < 100000 := (i 0).isLt
  have hi1 : (i 1).val < 64 := (i 1).isLt
  have hlt : (i 0).val / 10000 < 10 := by omega
  obtain ⟨-, -, -, -, -, -, e0, e1⟩ := idx_facts ⟨(i 0).val / 10000, hlt⟩
  have e0' : win2_3.index ⟨(i 0).val / 10000, hlt⟩ (0 : Fin 2) = (i 0).val / 10000 := e0
  refine ⟨⟨(i 0).val / 10000, hlt⟩, flush2_3 _, ?_⟩
  rw [mem_blk]
  intro a
  match a with
  | ⟨0, _⟩ =>
    show win2_3.index ⟨(i 0).val / 10000, hlt⟩ (0 : Fin 2) * 10000 ≤ (i 0).val
      ∧ (i 0).val < win2_3.index ⟨(i 0).val / 10000, hlt⟩ (0 : Fin 2) * 10000 + 10000
    omega
  | ⟨1, _⟩ =>
    show win2_3.index ⟨(i 0).val / 10000, hlt⟩ (1 : Fin 2) * 64 ≤ (i 1).val
      ∧ (i 1).val < win2_3.index ⟨(i 0).val / 10000, hlt⟩ (1 : Fin 2) * 64 + 64
    omega

end R2

/-- The array of the third region's output window after all its grid points. -/
theorem arr2 (c : Dev nD) :
    (dat2 (F := Ideal) V c).arrAt 3 cfg2.N
      = outNet (n := 100000) (V c main_v15) (V c main_arg10) (fun k => V c main_v16 (ix2 0 k)) :=
  (dat2 (F := Ideal) V c).arrAt_eq_of_cover 3 _ (fun t _ => R2.flushed_eq V c t) R2.cover

end Cert.KernelIdeal.Val

end
-- ==== Proof.KernelThread.lean ====
/- The kernel program's result buffer read back through @main to the launch memory.

   @main is three regions among stretches of host operations. Each region's output array is the
   whole-array function of what the region found on entry; each host stretch applies its operations to what the
   stretch found. Walking from the result back: the last region's output is the output projection of the aggregated
   messages; those are the host's gather, product and sum of the first region's node projection and the second
   region's edge network; and every argument array is as launched at every boundary, since nothing writes it. -/
import proofs.«101316_j40218073760108_1_alg».proof.Proof.Gen.KernelIdeal.Frame
import proofs.«101316_j40218073760108_1_alg».proof.Proof.Spec
import Idealize.ShloMosaic.Lib.Pipeline.Value
import Idealize.ShloMosaic.Lib.StableHlo.Run
import Idealize.ShloMosaic.Lib.ValueIdx
import Idealize.ShloMosaic.Lib.ValueLayout

set_option maxRecDepth 16384

noncomputable section

namespace Cert.KernelIdeal.Val

open Cert.KernelIdeal Cert.KernelIdeal.Gen Idealize.ShloMosaic Idealize.ShloMosaic.TcCoe Idealize.SL.Sem
open Idealize.ShloMosaic.StableHlo
open Idealize.ShloMosaic.ValueIdx Cert.CF

/-- Messages: row `src e` of the node values (a negative index counted from the end) times row `e` of the edge
    values, summed into row `dst e` of a zero array. -/
def glue (hv : (⟨S100000x64, .f32⟩ : BufTy).Contents (Elt Ideal)) (he : (⟨S1600000x64, .f32⟩ : BufTy).Contents (Elt Ideal))
    (src dst : (⟨S1600000, .i32⟩ : BufTy).Contents (Elt Ideal)) : (⟨S100000x64, .f32⟩ : BufTy).Contents (Elt Ideal) :=
  Host.scatterAdd (F := Ideal) scatter_S100000x64_S1600000x1_S1600000x64_1_0_0_1
    (broadcastInDim S100000x64 ![] bcast_S_S100000x64 (constant (F := Ideal) S_ .f32 0x00000000#32))
    (broadcastInDim S1600000x1 ![0] bcast_S1600000_S1600000x1_0 dst)
    (mulf (F := Ideal) (Host.gather gather_S100000x64_S1600000x1_S1600000x64_1_0_n_n_0_1_164 hv
      (broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 100000#32))) src))) he)

variable (m : (ℓ : Loc nD τ sig) → Buf (Elt Ideal) ℓ) (ρ : Dev nD → PrngReg) (c : Dev nD)

/-- What each region leaves in its output array, for ANY contents `V` the region is entered with: the dense layer,
    the edge network and the output projection of what it found. This module walks @main given these three facts. -/
structure RegionValues : Prop where
  node : ∀ (V : (c : Dev nD) → (b : Ref sig .tc) → Buf (Elt Ideal) ((c : Thread nD τ).loc b)) (c : Dev nD),
    (dat0 (F := Ideal) V c).arrAt 3 cfg0.N = lin (n := 100000) (V c main_arg0) (V c main_arg4) (fun k => V c main_v0 (ix2 0 k))
  edge : ∀ (V : (c : Dev nD) → (b : Ref sig .tc) → Buf (Elt Ideal) ((c : Thread nD τ).loc b)) (c : Dev nD),
    (dat1 (F := Ideal) V c).arrAt 5 cfg1.N
      = edgeNet (n := 1600000) (V c main_arg1) (V c main_arg6) (fun k => V c main_v2 (ix2 0 k)) (V c main_arg8) (fun k => V c main_v3 (ix2 0 k))
  out : ∀ (V : (c : Dev nD) → (b : Ref sig .tc) → Buf (Elt Ideal) ((c : Thread nD τ).loc b)) (c : Dev nD),
    (dat2 (F := Ideal) V c).arrAt 3 cfg2.N = outNet (n := 100000) (V c main_v15) (V c main_arg10) (fun k => V c main_v16 (ix2 0 k))

/-- The kernel program's result as one function of the launched arguments: the output projection of the messages formed
    from the node projection and the edge network. -/
def resultOf : (⟨S100000x64, .f32⟩ : BufTy).Contents (Elt Ideal) :=
  outNet (n := 100000)
    (glue (lin (n := 100000) (m ((c : Thread nD τ).loc main_arg0)) (m ((c : Thread nD τ).loc main_arg4))
            (fun k => m ((c : Thread nD τ).loc main_arg5) (ix1 k)))
          (edgeNet (n := 1600000) (m ((c : Thread nD τ).loc main_arg1)) (m ((c : Thread nD τ).loc main_arg6))
            (fun k => m ((c : Thread nD τ).loc main_arg7) (ix1 k)) (m ((c : Thread nD τ).loc main_arg8))
            (fun k => m ((c : Thread nD τ).loc main_arg9) (ix1 k)))
          (m ((c : Thread nD τ).loc main_arg2)) (m ((c : Thread nD τ).loc main_arg3)))
    (m ((c : Thread nD τ).loc main_arg10)) (fun k => m ((c : Thread nD τ).loc main_arg11) (ix1 k))

/-! ## Buffers that nothing has written yet are as launched -/

/-- Before the first region only the bias row of the node projection has been written. -/
theorem W1_keep (b : Ref sig .tc) (hb : b ≠ main_v0) :
    W1 m ρ c (Proc.devRef .tc b) = m ((c : Thread nD τ).loc b) :=
  StableHlo.after_of_forall_not_mem (b := Proc.devRef .tc b) _ _ (List.forall_iff_forall_mem.mp (by
    simp only [hostOps0, List.Forall, StableHlo.reshape_writes, Finset.mem_singleton]
    exact StableHlo.devRef_ne_of_ne hb))

/-- The first region writes its output array only; an array it does not touch is as before it. -/
theorem W2_keep (b : Ref sig .tc) (hb : b ≠ main_v0) (h0 : ∀ w, Pipeline.arrRef spec0 w ≠ b) :
    W2 m ρ c (Proc.devRef .tc b) = m ((c : Thread nD τ).loc b) :=
  (W2_of_ne m ρ c b h0).trans (W1_keep m ρ c b hb)

/-- The second host stretch writes the two bias rows of the edge network. -/
theorem W3_keep (b : Ref sig .tc) (hb : b ≠ main_v0) (h0 : ∀ w, Pipeline.arrRef spec0 w ≠ b) (h2 : b ≠ main_v2) (h3 : b ≠ main_v3) :
    W3 m ρ c (Proc.devRef .tc b) = m ((c : Thread nD τ).loc b) :=
  (StableHlo.after_of_forall_not_mem (b := Proc.devRef .tc b) _ _ (List.forall_iff_forall_mem.mp (by
    simp only [hostOps1, List.Forall, StableHlo.reshape_writes, Finset.mem_singleton]
    exact ⟨StableHlo.devRef_ne_of_ne h2, StableHlo.devRef_ne_of_ne h3⟩))).trans (W2_keep m ρ c b hb h0)

/-- The second region writes its output array only. -/
theorem W4_keep (b : Ref sig .tc) (hb : b ≠ main_v0) (h0 : ∀ w, Pipeline.arrRef spec0 w ≠ b) (h2 : b ≠ main_v2) (h3 : b ≠ main_v3)
    (h1 : ∀ w, Pipeline.arrRef spec1 w ≠ b) :
    W4 m ρ c (Proc.devRef .tc b) = m ((c : Thread nD τ).loc b) :=
  (W4_of_ne m ρ c b h1).trans (W3_keep m ρ c b hb h0 h2 h3)

/-! ## The node projection (first region) -/

/-- The bias row the first region finds is the bias argument, entry by entry. -/
theorem V1_bias : (fun k : Fin 64 => V1 m ρ c main_v0 (ix2 0 k)) = fun k => m ((c : Thread nD τ).loc main_arg5) (ix1 k) := by
  funext k
  have e : W1 m ρ c (Proc.devRef .tc main_v0)
      = shapeCast S1x64 (m ((c : Thread nD τ).loc main_arg5)) shapeCasts_S64_S1x64 := by
    show StableHlo.after hostOps0 (W0 m ρ c) (Proc.devRef .tc main_v0) = _
    after_results
    rfl
  show W1 m ρ c (Proc.devRef .tc main_v0) (ix2 0 k) = _
  rw [e]
  exact shapeCast_a_1a_apply _ _ 0 k

/-- After the first region its output array is the dense layer of the launched node features, weights and bias. -/
theorem W2_hv (hR : RegionValues) : W2 m ρ c (Proc.devRef .tc main_v1)
    = lin (n := 100000) (m ((c : Thread nD τ).loc main_arg0)) (m ((c : Thread nD τ).loc main_arg4))
        (fun k => m ((c : Thread nD τ).loc main_arg5) (ix1 k)) := by
  refine (W2_arr m ρ c 3).trans ?_
  rw [hR.node (V1 m ρ) c, V1_bias m ρ c]
  have e0 : V1 m ρ c main_arg0 = m ((c : Thread nD τ).loc main_arg0) := W1_keep m ρ c main_arg0 (by decide)
  have e4 : V1 m ρ c main_arg4 = m ((c : Thread nD τ).loc main_arg4) := W1_keep m ρ c main_arg4 (by decide)
  rw [e0, e4]

/-! ## The edge network (second region) -/

theorem V3_bias1 : (fun k : Fin 64 => V3 m ρ c main_v2 (ix2 0 k)) = fun k => m ((c : Thread nD τ).loc main_arg7) (ix1 k) := by
  funext k
  have e : W3 m ρ c (Proc.devRef .tc main_v2)
      = shapeCast S1x64 (W2 m ρ c (Proc.devRef .tc main_arg7)) shapeCasts_S64_S1x64 := by
    show StableHlo.after hostOps1 (W2 m ρ c) (Proc.devRef .tc main_v2) = _
    after_results
    rfl
  show W3 m ρ c (Proc.devRef .tc main_v2) (ix2 0 k) = _
  rw [e, W2_keep m ρ c main_arg7 (by decide) (by decide)]
  exact shapeCast_a_1a_apply _ _ 0 k

theorem V3_bias2 : (fun k : Fin 64 => V3 m ρ c main_v3 (ix2 0 k)) = fun k => m ((c : Thread nD τ).loc main_arg9) (ix1 k) := by
  funext k
  have e : W3 m ρ c (Proc.devRef .tc main_v3)
      = shapeCast S1x64 (W2 m ρ c (Proc.devRef .tc main_arg9)) shapeCasts_S64_S1x64 := by
    show StableHlo.after hostOps1 (W2 m ρ c) (Proc.devRef .tc main_v3) = _
    after_results
    rfl
  show W3 m ρ c (Proc.devRef .tc main_v3) (ix2 0 k) = _
  rw [e, W2_keep m ρ c main_arg9 (by decide) (by decide)]
  exact shapeCast_a_1a_apply _ _ 0 k

/-- After the second region its output array is the edge network of the launched edge features, weights and biases. -/
theorem W4_he (hR : RegionValues) : W4 m ρ c (Proc.devRef .tc main_v4)
    = edgeNet (n := 1600000) (m ((c : Thread nD τ).loc main_arg1)) (m ((c : Thread nD τ).loc main_arg6))
        (fun k => m ((c : Thread nD τ).loc main_arg7) (ix1 k)) (m ((c : Thread nD τ).loc main_arg8))
        (fun k => m ((c : Thread nD τ).loc main_arg9) (ix1 k)) := by
  refine (W4_arr m ρ c 5).trans ?_
  rw [hR.edge (V3 m ρ) c, V3_bias1 m ρ c, V3_bias2 m ρ c]
  have e1 : V3 m ρ c main_arg1 = m ((c : Thread nD τ).loc main_arg1) := W3_keep m ρ c main_arg1 (by decide) (by decide) (by decide) (by decide)
  have e6 : V3 m ρ c main_arg6 = m ((c : Thread nD τ).loc main_arg6) := W3_keep m ρ c main_arg6 (by decide) (by decide) (by decide) (by decide)
  have e8 : V3 m ρ c main_arg8 = m ((c : Thread nD τ).loc main_arg8) := W3_keep m ρ c main_arg8 (by decide) (by decide) (by decide) (by decide)
  rw [e1, e6, e8]

/-- The node projection is still in its array when the messages are formed: neither the second host stretch nor the
    second region writes it. -/
theorem W4_hv (hR : RegionValues) : W4 m ρ c (Proc.devRef .tc main_v1)
    = lin (n := 100000) (m ((c : Thread nD τ).loc main_arg0)) (m ((c : Thread nD τ).loc main_arg4))
        (fun k => m ((c : Thread nD τ).loc main_arg5) (ix1 k)) :=
  (W4_of_ne m ρ c main_v1 (by decide)).trans
    ((StableHlo.after_of_forall_not_mem (b := Proc.devRef .tc main_v1) _ _ (List.forall_iff_forall_mem.mp (by
      simp only [hostOps1, List.Forall, StableHlo.reshape_writes, Finset.mem_singleton]
      exact ⟨StableHlo.devRef_ne_of_ne (by decide), StableHlo.devRef_ne_of_ne (by decide)⟩))).trans (W2_hv m ρ c hR))

/-! ## The messages and the output projection (third host stretch, third region) -/

/-- The aggregated messages the third region finds. -/
theorem W5_msgs : W5 m ρ c (Proc.devRef .tc main_v15)
    = glue (W4 m ρ c (Proc.devRef .tc main_v1)) (W4 m ρ c (Proc.devRef .tc main_v4))
        (W4 m ρ c (Proc.devRef .tc main_arg2)) (W4 m ρ c (Proc.devRef .tc main_arg3)) := by
  show StableHlo.after hostOps2 (W4 m ρ c) (Proc.devRef .tc main_v15) = _
  after_results
  rfl

theorem V5_bias : (fun k : Fin 64 => V5 m ρ c main_v16 (ix2 0 k)) = fun k => m ((c : Thread nD τ).loc main_arg11) (ix1 k) := by
  funext k
  have e : W5 m ρ c (Proc.devRef .tc main_v16)
      = shapeCast S1x64 (W4 m ρ c (Proc.devRef .tc main_arg11)) shapeCasts_S64_S1x64 := by
    show StableHlo.after hostOps2 (W4 m ρ c) (Proc.devRef .tc main_v16) = _
    after_results
    rfl
  show W5 m ρ c (Proc.devRef .tc main_v16) (ix2 0 k) = _
  rw [e, W4_keep m ρ c main_arg11 (by decide) (by decide) (by decide) (by decide) (by decide)]
  exact shapeCast_a_1a_apply _ _ 0 k

theorem V5_w : V5 m ρ c main_arg10 = m ((c : Thread nD τ).loc main_arg10) :=
  (StableHlo.after_of_forall_not_mem (b := Proc.devRef .tc main_arg10) _ _ (List.forall_iff_forall_mem.mp (by
    simp only [hostOps2, List.Forall, StableHlo.nullary_writes, StableHlo.unary_writes, StableHlo.binary_writes, StableHlo.ternary_writes, StableHlo.reshape_writes, Finset.mem_singleton]
    repeat' apply And.intro
    all_goals exact StableHlo.devRef_ne_of_ne (by decide)))).trans
    (W4_keep m ρ c main_arg10 (by decide) (by decide) (by decide) (by decide) (by decide))

/-- THE RESULT: the kernel program's result buffer after @main is `resultOf` of the launched arguments. -/
theorem result_eq (hR : RegionValues) : W6 m ρ c (Proc.devRef .tc main_v17) = resultOf m c := by
  unfold resultOf
  refine (W6_arr m ρ c 3).trans ?_
  rw [hR.out (V5 m ρ) c, V5_bias m ρ c, V5_w m ρ c]
  have e15 : V5 m ρ c main_v15 = W5 m ρ c (Proc.devRef .tc main_v15) := rfl
  rw [e15, W5_msgs m ρ c, W4_hv m ρ c hR, W4_he m ρ c hR,
    W4_keep m ρ c main_arg2 (by decide) (by decide) (by decide) (by decide) (by decide),
    W4_keep m ρ c main_arg3 (by decide) (by decide) (by decide) (by decide) (by decide)]

end Cert.KernelIdeal.Val

end
-- ==== Proof.RefValue.lean ====
/- The reference read stage by stage: its node projection is the dense layer, its edge path the two-layer network, and
   its result the output projection of the messages summed into their destination nodes. The gather of source rows,
   the product with the edge values and the sum into destination rows are carried as one function `glue`. -/
import proofs.«101316_j40218073760108_1_alg».proof.Proof.Gen.ReferenceIdeal.Read
import proofs.«101316_j40218073760108_1_alg».proof.Proof.Spec
import Idealize.ShloMosaic.Lib.ValueIdx
import Idealize.ShloMosaic.Lib.ValueLayout
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.TcCoe Idealize.SL.Sem
open Idealize.ShloMosaic.ValueIdx Cert.CF

/-- Messages: row `src e` of the node values (a negative index counted from the end) times row `e` of the edge
    values, summed into row `dst e` of a zero array. -/
def glue (hv : (⟨S100000x64, .f32⟩ : BufTy).Contents (Elt Ideal)) (he : (⟨S1600000x64, .f32⟩ : BufTy).Contents (Elt Ideal))
    (src dst : (⟨S1600000, .i32⟩ : BufTy).Contents (Elt Ideal)) : (⟨S100000x64, .f32⟩ : BufTy).Contents (Elt Ideal) :=
  Host.scatterAdd (F := Ideal) scatter_S100000x64_S1600000x1_S1600000x64_1_0_0_1
    (broadcastInDim S100000x64 ![] bcast_S_S100000x64 (constant (F := Ideal) S_ .f32 0x00000000#32))
    (broadcastInDim S1600000x1 ![0] bcast_S1600000_S1600000x1_0 dst)
    (mulf (F := Ideal) (Host.gather gather_S100000x64_S1600000x1_S1600000x64_1_0_n_n_0_1_164 hv
      (broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 100000#32))) src))) he)

variable (x0 : (⟨S100000x64, .f32⟩ : BufTy).Contents (Elt Ideal)) (x1 : (⟨S1600000x64, .f32⟩ : BufTy).Contents (Elt Ideal))
  (x2 x3 : (⟨S1600000, .i32⟩ : BufTy).Contents (Elt Ideal))
  (x4 : (⟨S64x64, .f32⟩ : BufTy).Contents (Elt Ideal)) (x5 : (⟨S64, .f32⟩ : BufTy).Contents (Elt Ideal))
  (x6 : (⟨S64x64, .f32⟩ : BufTy).Contents (Elt Ideal)) (x7 : (⟨S64, .f32⟩ : BufTy).Contents (Elt Ideal))
  (x8 : (⟨S64x64, .f32⟩ : BufTy).Contents (Elt Ideal)) (x9 : (⟨S64, .f32⟩ : BufTy).Contents (Elt Ideal))
  (x10 : (⟨S64x64, .f32⟩ : BufTy).Contents (Elt Ideal)) (x11 : (⟨S64, .f32⟩ : BufTy).Contents (Elt Ideal))

/-! ## Index equations: the printed index maps at an index given by its coordinates -/

/-- Node projection, left operand: row r, column k. -/
theorem lidx_v0 (r : Fin 100000) (j k : Fin 64) : lidx_main_v0 (ix2 r j) k = ix2 r k :=
  funext fun a => Fin.ext (by match a with | ⟨0, _⟩ => rfl | ⟨1, _⟩ => rfl)
/-- Node projection, right operand: row k, column j. -/
theorem ridx_v0 (r : Fin 100000) (j k : Fin 64) : ridx_main_v0 (ix2 r j) k = ix2 k j :=
  funext fun a => Fin.ext (by match a with | ⟨0, _⟩ => rfl | ⟨1, _⟩ => rfl)
/-- Node projection, bias: entry j. -/
theorem bidx_v2 (r : Fin 100000) (j : Fin 64) : idx_main_v1 (idx_main_v2 (ix2 r j)) = ix1 j :=
  funext fun a => Fin.ext (by match a with | ⟨0, _⟩ => rfl)

/-- First edge layer, left operand: row r, column k. -/
theorem lidx_v4 (r : Fin 1600000) (j k : Fin 64) : lidx_main_v4 (ix2 r j) k = ix2 r k :=
  funext fun a => Fin.ext (by match a with | ⟨0, _⟩ => rfl | ⟨1, _⟩ => rfl)
/-- First edge layer, right operand: row k, column j. -/
theorem ridx_v4 (r : Fin 1600000) (j k : Fin 64) : ridx_main_v4 (ix2 r j) k = ix2 k j :=
  funext fun a => Fin.ext (by match a with | ⟨0, _⟩ => rfl | ⟨1, _⟩ => rfl)
/-- First edge layer, bias: entry j. -/
theorem bidx_v6 (r : Fin 1600000) (j : Fin 64) : idx_main_v5 (idx_main_v6 (ix2 r j)) = ix1 j :=
  funext fun a => Fin.ext (by match a with | ⟨0, _⟩ => rfl)

/-- Second edge layer, left operand: row r, column k. -/
theorem lidx_v11 (r : Fin 1600000) (j k : Fin 64) : lidx_main_v11 (ix2 r j) k = ix2 r k :=
  funext fun a => Fin.ext (by match a with | ⟨0, _⟩ => rfl | ⟨1, _⟩ => rfl)
/-- Second edge layer, right operand: row k, column j. -/
theorem ridx_v11 (r : Fin 1600000) (j k : Fin 64) : ridx_main_v11 (ix2 r j) k = ix2 k j :=
  funext fun a => Fin.ext (by match a with | ⟨0, _⟩ => rfl | ⟨1, _⟩ => rfl)
/-- Second edge layer, bias: entry j. -/
theorem bidx_v13 (r : Fin 1600000) (j : Fin 64) : idx_main_v12 (idx_main_v13 (ix2 r j)) = ix1 j :=
  funext fun a => Fin.ext (by match a with | ⟨0, _⟩ => rfl)

/-- Output layer, left operand: row r, column k. -/
theorem lidx_v29 (r : Fin 100000) (j k : Fin 64) : lidx_main_v29 (ix2 r j) k = ix2 r k :=
  funext fun a => Fin.ext (by match a with | ⟨0, _⟩ => rfl | ⟨1, _⟩ => rfl)
/-- Output layer, right operand: row k, column j. -/
theorem ridx_v29 (r : Fin 100000) (j k : Fin 64) : ridx_main_v29 (ix2 r j) k = ix2 k j :=
  funext fun a => Fin.ext (by match a with | ⟨0, _⟩ => rfl | ⟨1, _⟩ => rfl)
/-- Output layer, bias: entry j. -/
theorem bidx_v31 (r : Fin 100000) (j : Fin 64) : idx_main_v30 (idx_main_v31 (ix2 r j)) = ix1 j :=
  funext fun a => Fin.ext (by match a with | ⟨0, _⟩ => rfl)

/-! ## The three shifted softplus stages, each at an index, as a function of its pre-activation

Each stage is a pointwise function of its pre-activation: with an arbitrary extended real y in that place, the stage's value is
the reference's spelling of the shifted softplus at y, which is the shifted softplus of y. -/

/-- After the first edge layer: the guarded sum minus log 2 is the shifted softplus of the pre-activation. -/
theorem v10_at (i : S1600000x64.Idx) :
    val_main_v10 (F := Ideal) x1 x6 x7 i = ssp (val_main_v7 (F := Ideal) x1 x6 x7 i) := by
  rw [← sspR_eq, val_main_v10_apply, val_main_v8_apply, val_main_call0_v4_apply, val_main_call0_v6_apply,
    val_main_call0_v11_apply, val_main_call0_v1_apply, val_main_call0_v10_apply, val_main_call0_v9_apply,
    val_main_call0_v8_apply, val_main_call0_v7_apply, val_main_call0_v3_apply, val_main_call0_v0_apply,
    val_main_call0_v2_apply, val_main_call0_v5_apply, val_main_v9_apply]
  generalize val_main_v7 (F := Ideal) x1 x6 x7 i = y
  simp only [val_main_call0_cst_apply, val_main_cst_apply]
  rfl

/-- After the second edge layer. -/
theorem v17_at (i : S1600000x64.Idx) :
    val_main_v17 (F := Ideal) x1 x6 x7 x8 x9 i = ssp (val_main_v14 (F := Ideal) x1 x6 x7 x8 x9 i) := by
  rw [← sspR_eq, val_main_v17_apply, val_main_v15_apply, val_main_call1_v4_apply, val_main_call1_v6_apply,
    val_main_call1_v11_apply, val_main_call1_v1_apply, val_main_call1_v10_apply, val_main_call1_v9_apply,
    val_main_call1_v8_apply, val_main_call1_v7_apply, val_main_call1_v3_apply, val_main_call1_v0_apply,
    val_main_call1_v2_apply, val_main_call1_v5_apply, val_main_v16_apply]
  generalize val_main_v14 (F := Ideal) x1 x6 x7 x8 x9 i = y
  simp only [val_main_call1_cst_apply, val_main_cst_0_apply]
  rfl

/-- After the output layer. -/
theorem v35_at (i : S100000x64.Idx) :
    val_main_v35 (F := Ideal) x0 x1 x2 x3 x4 x5 x6 x7 x8 x9 x10 x11 i
      = ssp (val_main_v32 (F := Ideal) x0 x1 x2 x3 x4 x5 x6 x7 x8 x9 x10 x11 i) := by
  rw [← sspR_eq, val_main_v35_apply, val_main_v33_apply, val_main_call2_v4_apply, val_main_call2_v6_apply,
    val_main_call2_v11_apply, val_main_call2_v1_apply, val_main_call2_v10_apply, val_main_call2_v9_apply,
    val_main_call2_v8_apply, val_main_call2_v7_apply, val_main_call2_v3_apply, val_main_call2_v0_apply,
    val_main_call2_v2_apply, val_main_call2_v5_apply, val_main_v34_apply]
  generalize val_main_v32 (F := Ideal) x0 x1 x2 x3 x4 x5 x6 x7 x8 x9 x10 x11 i = y
  simp only [val_main_call2_cst_apply, val_main_cst_3_apply]
  rfl

/-! ## The dense layers -/

/-- The reference's node projection is the dense layer. -/
theorem hv_eq : val_main_v3 (F := Ideal) x0 x4 x5 = lin (n := 100000) x0 x4 (fun k => x5 (ix1 k)) := by
  funext i
  obtain ⟨r, j, rfl⟩ : ∃ (r : Fin 100000) (j : Fin 64), i = ix2 r j := ⟨i 0, i 1, eq_ix2 i⟩
  rw [val_main_v3_apply, val_main_v0_apply, val_main_v2_apply, val_main_v1_apply, Ideal.addf_def, lin_apply]
  simp only [lidx_v0, ridx_v0, bidx_v2]

/-- The first edge layer's pre-activation is the dense layer of the edge features. -/
theorem v7_eq : val_main_v7 (F := Ideal) x1 x6 x7 = lin (n := 1600000) x1 x6 (fun k => x7 (ix1 k)) := by
  funext i
  obtain ⟨r, j, rfl⟩ : ∃ (r : Fin 1600000) (j : Fin 64), i = ix2 r j := ⟨i 0, i 1, eq_ix2 i⟩
  rw [val_main_v7_apply, val_main_v4_apply, val_main_v6_apply, val_main_v5_apply, Ideal.addf_def, lin_apply]
  simp only [lidx_v4, ridx_v4, bidx_v6]

/-- The second edge layer's pre-activation is the dense layer of the first layer's activation. -/
theorem v14_eq : val_main_v14 (F := Ideal) x1 x6 x7 x8 x9
    = lin (n := 1600000) (fun i => ssp (lin (n := 1600000) x1 x6 (fun k => x7 (ix1 k)) i)) x8 (fun k => x9 (ix1 k)) := by
  funext i
  obtain ⟨r, j, rfl⟩ : ∃ (r : Fin 1600000) (j : Fin 64), i = ix2 r j := ⟨i 0, i 1, eq_ix2 i⟩
  rw [val_main_v14_apply, val_main_v11_apply, val_main_v13_apply, val_main_v12_apply, Ideal.addf_def, lin_apply]
  simp only [lidx_v11, ridx_v11, bidx_v13, v10_at, v7_eq]

/-- The reference's edge path is the two-layer network. -/
theorem he_eq : val_main_v17 (F := Ideal) x1 x6 x7 x8 x9
    = edgeNet (n := 1600000) x1 x6 (fun k => x7 (ix1 k)) x8 (fun k => x9 (ix1 k)) := by
  funext i
  show _ = ssp (lin (n := 1600000) (fun j => ssp (lin (n := 1600000) x1 x6 (fun k => x7 (ix1 k)) j)) x8 (fun k => x9 (ix1 k)) i)
  rw [v17_at, v14_eq]

/-! ## The messages and the result -/

/-- The gather, product and scatter-add stages are, as written, the function glue of the node projection and the edge path. -/
theorem v28_eq : val_main_v28 (F := Ideal) x0 x1 x2 x3 x4 x5 x6 x7 x8 x9
    = glue (val_main_v3 (F := Ideal) x0 x4 x5) (val_main_v17 (F := Ideal) x1 x6 x7 x8 x9) x2 x3 := by
  unfold glue val_main_v28 val_main_v27 val_main_v26 val_main_v25 val_main_v24 val_main_v23 val_main_v22 val_main_v21
    val_main_v20 val_main_v19 val_main_v18 val_main_c val_main_c_1 val_main_cst_2
  rfl

/-- The output layer's pre-activation is the dense layer of the summed messages. -/
theorem v32_eq : val_main_v32 (F := Ideal) x0 x1 x2 x3 x4 x5 x6 x7 x8 x9 x10 x11
    = lin (n := 100000) (glue (lin (n := 100000) x0 x4 (fun k => x5 (ix1 k)))
        (edgeNet (n := 1600000) x1 x6 (fun k => x7 (ix1 k)) x8 (fun k => x9 (ix1 k))) x2 x3) x10 (fun k => x11 (ix1 k)) := by
  funext i
  obtain ⟨r, j, rfl⟩ : ∃ (r : Fin 100000) (j : Fin 64), i = ix2 r j := ⟨i 0, i 1, eq_ix2 i⟩
  rw [val_main_v32_apply, val_main_v29_apply, val_main_v31_apply, val_main_v30_apply, Ideal.addf_def, v28_eq, hv_eq, he_eq,
    lin_apply]
  simp only [lidx_v29, ridx_v29, bidx_v31]

/-- The reference's result is the output projection of the summed messages. -/
theorem result_eq : val_main_v35 (F := Ideal) x0 x1 x2 x3 x4 x5 x6 x7 x8 x9 x10 x11
    = outNet (n := 100000) (glue (lin (n := 100000) x0 x4 (fun k => x5 (ix1 k)))
        (edgeNet (n := 1600000) x1 x6 (fun k => x7 (ix1 k)) x8 (fun k => x9 (ix1 k))) x2 x3) x10 (fun k => x11 (ix1 k)) := by
  funext i
  show _ = ssp (lin (n := 100000) (glue (lin (n := 100000) x0 x4 (fun k => x5 (ix1 k)))
    (edgeNet (n := 1600000) x1 x6 (fun k => x7 (ix1 k)) x8 (fun k => x9 (ix1 k))) x2 x3) x10 (fun k => x11 (ix1 k)) i)
  rw [v35_at, v32_eq]

end Cert.ReferenceIdeal.RefValue

end
-- ==== Proof.lean ====
/- A message-passing layer (continuous-filter convolution on a graph of 100000 nodes and 1600000 edges, 64 features):
   node features are projected by a dense layer; edge features go through a two-layer network with the shifted
   softplus `ssp y = max(y,0) + log(1 + exp(-|y|)) - ln 2` after each layer; each edge's message is the projected
   features of its source node times the edge's values; messages are summed into their destination nodes; a last dense
   layer and shifted softplus give the result.

   The kernel program computes the three dense stages in three tiled regions (row blocks of 10000, 8000 and 10000
   rows; each block's rows depend only on the same rows of the input and on the whole weight matrix and bias) and
   leaves the gather, the product and the sum to the host; the reference computes everything on the host. On the
   extended reals a change of float format is the identity, a matrix product into a zero accumulator and the host's
   contraction are the same sum over the 64 inner indices, and the two spellings of the shifted softplus agree
   (a value never differs from itself; `0 - a = -a`). So each region's output array is the same whole-array function
   the reference's stages compute, the host's gather / product / sum is literally the same function on both sides,
   and the two results are equal entry by entry. No law used needs finite inputs.

   The three frames: the kernel programs' are the generated ones; the reference's is its generated run with the
   result dropped. The idealization rewrote nothing, so `preserves` is trivial. -/
import proofs.«101316_j40218073760108_1_alg».proof.Defs
import proofs.«101316_j40218073760108_1_alg».proof.Proof.Gen.Kernel
import proofs.«101316_j40218073760108_1_alg».proof.Proof.Gen.Kernel.Frame
import proofs.«101316_j40218073760108_1_alg».proof.Proof.Gen.KernelIdeal
import proofs.«101316_j40218073760108_1_alg».proof.Proof.Gen.KernelIdeal.Frame
import proofs.«101316_j40218073760108_1_alg».proof.Proof.Gen.ReferenceIdeal
import proofs.«101316_j40218073760108_1_alg».proof.Proof.Gen.Pre_finite_inputs
import proofs.«101316_j40218073760108_1_alg».proof.Proof.Gen.ReferenceIdeal.Run
import proofs.«101316_j40218073760108_1_alg».proof.Proof.Gen.ReferenceIdeal.Read
import proofs.«101316_j40218073760108_1_alg».proof.Proof.Region0
import proofs.«101316_j40218073760108_1_alg».proof.Proof.Region1
import proofs.«101316_j40218073760108_1_alg».proof.Proof.Region2
import proofs.«101316_j40218073760108_1_alg».proof.Proof.KernelRun
import proofs.«101316_j40218073760108_1_alg».proof.Proof.KernelThread
import proofs.«101316_j40218073760108_1_alg».proof.Proof.RefValue
import Idealize.ShloMosaic.Adequacy
import Idealize.ShloMosaic.Init

noncomputable section

namespace Cert.Proof

open Idealize.ShloMosaic Idealize.SL.Sem

/-- The three regions leave the dense layer, the edge network and the output projection of what they found. -/
theorem regionValues : Cert.KernelIdeal.Val.RegionValues :=
  ⟨fun V c => Cert.KernelIdeal.Val.arr0 V c, fun V c => Cert.KernelIdeal.Val.arr1 V c, fun V c => Cert.KernelIdeal.Val.arr2 V c⟩

/-- The host's gather, product and sum is one function, whichever program's vocabulary spells it. -/
theorem glue_eq (hv : (⟨Cert.KernelIdeal.S100000x64, .f32⟩ : BufTy).Contents (Elt Ideal))
    (he : (⟨Cert.KernelIdeal.S1600000x64, .f32⟩ : BufTy).Contents (Elt Ideal))
    (src dst : (⟨Cert.KernelIdeal.S1600000, .i32⟩ : BufTy).Contents (Elt Ideal)) :
    Cert.ReferenceIdeal.RefValue.glue hv he src dst = Cert.KernelIdeal.Val.glue hv he src dst := rfl

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both programs end with the output projection of the summed messages of the same arguments. -/
theorem algebraic : Cert.algebraic_KernelIdeal_ReferenceIdeal := by
  intro m ρ m' ρ' _ hagree
  refine ⟨fun c => Cert.KernelIdeal.Val.resultOf m c, ?_, ?_⟩
  · exact (θ_run Cert.KernelIdeal.defs _ _).mono
      (fun r h c => ⟨(h c).1.trans (Cert.KernelIdeal.Val.result_eq m ρ c regionValues), (h c).2⟩)
      (Cert.KernelIdeal.Val.run_result (F := Ideal) m ρ)
  · refine (θ_run Cert.ReferenceIdeal.defs _ _).mono (fun r h c => ⟨(h c).1.trans ?_, (h c).2⟩)
      (Cert.ReferenceIdeal.Value.run (F := Ideal) m' ρ')
    obtain ⟨a0, a1, a2, a3, a4, a5, a6, a7, a8, a9, a10, a11⟩ := hagree c
    rw [Cert.ReferenceIdeal.Read.val_main_v35_eq, Cert.ReferenceIdeal.RefValue.result_eq,
      a0, a1, a2, a3, a4, a5, a6, a7, a8, a9, a10, a11, glue_eq]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
